-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S32x10 1) : IVec S_ 1 :=
  let main_c_5 : IVec S_ 1 := constantI S_ 1 1#1
  let main_v17 : IVec S_ 1 := (fun x v => Host.reduce IntOp.andi x v reducesTo_S32x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x32 .f32) (main_arg3 : FVec F S32 .f32) (main_arg4 : FVec F S32x10 .f32) (main_arg5 : FVec F S10 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg2
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x10 .f32 := Host.absf main_arg4
  let main_cst_4 : FVec F S_ .f32 := constant S_ .f32 0x7F800000#32
  let main_v15 : FVec F S32x10 .f32 := broadcastInDim S32x10 ![] bcast_S_S32x10 main_cst_4
  let main_v16 : IVec S32x10 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x10 : Shape := ⟨2, ![32, 10]⟩
abbrev S10 : Shape := ⟨1, ![10]⟩
abbrev S100000x32 : Shape := ⟨2, ![100000, 32]⟩
abbrev S5000x256 : Shape := ⟨2, ![5000, 256]⟩
abbrev S5000x32 : Shape := ⟨2, ![5000, 32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S1x10 : Shape := ⟨2, ![1, 10]⟩
abbrev S100000x10 : Shape := ⟨2, ![100000, 10]⟩
abbrev S5000x10 : Shape := ⟨2, ![5000, 10]⟩
abbrev S5000 : Shape := ⟨1, ![5000]⟩
abbrev S5000x1 : Shape := ⟨2, ![5000, 1]⟩

abbrev nBuf : Space → Nat
  | .hbm => 59
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x10, .f32⟩
  | .hbm, ⟨5, _⟩ => ⟨S10, .f32⟩
  | .hbm, ⟨6, _⟩ => ⟨S100000x32, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3300000, .i32⟩
  | .hbm, ⟨23, _⟩ => ⟨S3300000, .i1⟩
  | .hbm, ⟨24, _⟩ => ⟨S_, .i32⟩
  | .hbm, ⟨25, _⟩ => ⟨S3300000, .i32⟩
  | .hbm, ⟨26, _⟩ => ⟨S3300000, .i32⟩
  | .hbm, ⟨27, _⟩ => ⟨S3300000, .i32⟩
  | .hbm, ⟨28, _⟩ => ⟨S3300000x1, .i32⟩
  | .hbm, ⟨29, _⟩ => ⟨S3300000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x32, .f32⟩
  | .hbm, ⟨49, _⟩ => ⟨S3300000x1, .f32⟩
  | .hbm, ⟨50, _⟩ => ⟨S3300000x32, .f32⟩
  | .hbm, ⟨51, _⟩ => ⟨S3300000x32, .f32⟩
  | .hbm, ⟨52, _⟩ => ⟨S_, .f32⟩
  | .hbm, ⟨53, _⟩ => ⟨S100000x32, .f32⟩
  | .hbm, ⟨54, _⟩ => ⟨S3300000x1, .i32⟩
  | .hbm, ⟨55, _⟩ => ⟨S100000x32, .f32⟩
  | .hbm, ⟨56, _⟩ => ⟨S1x32, .f32⟩
  | .hbm, ⟨57, _⟩ => ⟨S1x10, .f32⟩
  | .hbm, ⟨58, _⟩ => ⟨S100000x10, .f32⟩
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S32x10, .f32⟩
  | .local _ .vmem, ⟨9, _⟩ => ⟨S1x10, .f32⟩
  | .local _ .vmem, ⟨10, _⟩ => ⟨S5000x10, .f32⟩
  | .local _ .vmem, ⟨11, _⟩ => ⟨S5000x10, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x10 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S5000x32_S5000x32_0_0 : ∀ a, (![0, 0] : Fin 2 → Nat) a + S5000x32.size a ≤ S5000x32.size a
  h_S5000x32 : 0 < S5000x32.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10_S1x10 : S10.ShapeCasts S1x10
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  dot_S5000x256_S256x32_S5000x32_1_0_0_1_n_n_wf : DotDims.WF S5000x256 S256x32 S5000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x10_S5000x10_1_0_0_1_n_n_wf : DotDims.WF S5000x32 S32x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x10.size a ≤ S32x10.size a
  hwx1_2 : ∀ i : grid1.Coords, EltTy.bits .f32 = 32 ∨ (Rect.block (s := S32x10) S32x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x10.size a ≤ S1x10.size a
  hwx1_3 : ∀ i : grid1.Coords, EltTy.bits .f32 = 32 ∨ (Rect.block (s := S1x10) S1x10.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x10.size a ≤ S100000x10.size a
  hwx1_4 : ∀ i : grid1.Coords, EltTy.bits .f32 = 32 ∨ (Rect.block (s := S100000x10) S5000x10.size (cc1_transform_4 i) (hinb1_4 i)).WholeWords (EltTy.packing .f32)

variable [Facts₀]

def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x10_S5000x10_1_0_0_1_n_n : DotDims S5000x32 S32x10 S5000x10 where
  lhsContracting := [1]
  rhsContracting := [0]
  lhsNonContracting := [0]
  rhsNonContracting := [1]
  lhsBatch := []
  rhsBatch := []
  wf := dot_S5000x32_S32x10_S5000x10_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x10.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x10 : Shape := ⟨2, ![32, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x32 : Shape := ⟨2, ![100000, 32]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x10 : Shape := ⟨2, ![100000, 10]⟩
abbrev S1x10 : Shape := ⟨2, ![1, 10]⟩
abbrev S100000x1 : Shape := ⟨2, ![100000, 1]⟩

abbrev nBuf : Space → Nat
  | .hbm => 81
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x10, .f32⟩
  | .hbm, ⟨5, _⟩ => ⟨S10, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x32, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3300000, .i32⟩
  | .hbm, ⟨23, _⟩ => ⟨S3300000, .i1⟩
  | .hbm, ⟨24, _⟩ => ⟨S_, .i32⟩
  | .hbm, ⟨25, _⟩ => ⟨S3300000, .i32⟩
  | .hbm, ⟨26, _⟩ => ⟨S3300000, .i32⟩
  | .hbm, ⟨27, _⟩ => ⟨S3300000, .i32⟩
  | .hbm, ⟨28, _⟩ => ⟨S3300000x1, .i32⟩
  | .hbm, ⟨29, _⟩ => ⟨S3300000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x32, .f32⟩
  | .hbm, ⟨49, _⟩ => ⟨S3300000x1, .f32⟩
  | .hbm, ⟨50, _⟩ => ⟨S3300000x32, .f32⟩
  | .hbm, ⟨51, _⟩ => ⟨S3300000x32, .f32⟩
  | .hbm, ⟨52, _⟩ => ⟨S_, .f32⟩
  | .hbm, ⟨53, _⟩ => ⟨S100000x32, .f32⟩
  | .hbm, ⟨54, _⟩ => ⟨S3300000x1, .i32⟩
  | .hbm, ⟨55, _⟩ => ⟨S100000x32, .f32⟩
  | .hbm, ⟨56, _⟩ => ⟨S1x32, .f32⟩
  | .hbm, ⟨57, _⟩ => ⟨S100000x32, .f32⟩
  | .hbm, ⟨58, _⟩ => ⟨S100000x32, .f32⟩
  | .hbm, ⟨59, _⟩ => ⟨S_, .f32⟩
  | .hbm, ⟨60, _⟩ => ⟨S100000x32, .f32⟩
  | .hbm, ⟨61, _⟩ => ⟨S100000x32, .f32⟩
  | .hbm, ⟨62, _⟩ => ⟨S100000x10, .f32⟩
  | .hbm, ⟨63, _⟩ => ⟨S1x10, .f32⟩
  | .hbm, ⟨64, _⟩ => ⟨S100000x10, .f32⟩
  | .hbm, ⟨65, _⟩ => ⟨S100000x10, .f32⟩
  | .hbm, ⟨66, _⟩ => ⟨S_, .f32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x10, .f32⟩
  | .hbm, ⟨73, _⟩ => ⟨S100000x10, .f32⟩
  | .hbm, ⟨74, _⟩ => ⟨S100000x10, .f32⟩
  | .hbm, ⟨75, _⟩ => ⟨S_, .f32⟩
  | .hbm, ⟨76, _⟩ => ⟨S100000, .f32⟩
  | .hbm, ⟨77, _⟩ => ⟨S100000x1, .f32⟩
  | .hbm, ⟨78, _⟩ => ⟨S100000x1, .f32⟩
  | .hbm, ⟨79, _⟩ => ⟨S100000x10, .f32⟩
  | .hbm, ⟨80, _⟩ => ⟨S100000x10, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call1_cst : Ref sig .tc := ⟨.hbm, 66, rfl⟩
abbrev main_call1_v0 : Ref sig .tc := ⟨.hbm, 67, rfl⟩
abbrev main_call1_cst_0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_cst_1 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_v49 : Ref sig .tc := ⟨.hbm, 80, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  dot_S100000x256_S256x32_S100000x32_1_0_0_1_n_n_wf : DotDims.WF S100000x256 S256x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x10_S100000x10_1_0_0_1_n_n_wf : DotDims.WF S100000x32 S32x10 S100000x10 [1] [0] [0] [1] [] []

variable [Facts₀]

def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x10_S100000x10_1_0_0_1_n_n : DotDims S100000x32 S32x10 S100000x10 where
  lhsContracting := [1]
  rhsContracting := [0]
  lhsNonContracting := [0]
  rhsNonContracting := [1]
  lhsBatch := []
  rhsBatch := []
  wf := dot_S100000x32_S32x10_S100000x10_1_0_0_1_n_n_wf

class Facts : Prop extends Facts₀ where

variable [Facts]
-- ==== Proof.Graph.lean ====
/-
  The graph stage as one function of the dense layer's output `h` and the edge list `e`, at any float values.

  Both programs run the same host operations between the dense layer and the head: take the source row and the target
  row of the edge list and append the self-loops 0 … N−1 (`withLoops`); count each node's in-degree by scatter-adding
  ones at the targets (`degree`); take its reciprocal square root; for each edge multiply the two endpoints' factors
  (`edgeNorm`); gather the source's row of `h`, scale it (`messages`), and scatter-add it at the target (`aggregate`).
  A negative index is wrapped by +N before a gather, as array indexing does. Stated once here, so that the two programs'
  values are this one term and nothing below has to be opened to compare them.
-/
import proofs.«150231_j42374147342661_1_alg».proof.KernelIdeal
import proofs.«150231_j42374147342661_1_alg».proof.Proof.Gen.KernelIdeal

noncomputable section

namespace Cert.Gcn

open Idealize.ShloMosaic Cert.KernelIdeal Cert.KernelIdeal.Facts₀

variable {F : FTy → Type} [FloatOps F]

/-- One row of the edge list as a flat vector with the self-loops 0 … N−1 appended. -/
def withLoops (v : IVec S1x3200000 32) : IVec S3300000 32 :=
  concatenate S3300000 0 [⟨S3200000, shapeCast _ v shapeCasts_S1x3200000_S3200000⟩, ⟨S100000, iotaInDim S100000 32 0⟩]
    concatenates_S3200000_S100000_S3300000_d0

/-- The edges' source nodes. -/
def sources (e : IVec S2x3200000 32) : IVec S3300000 32 :=
  withLoops (extractStridedSlice S1x3200000 ![0, 0] e slices_S2x3200000_S1x3200000_0_0)

/-- The edges' target nodes. -/
def targets (e : IVec S2x3200000 32) : IVec S3300000 32 :=
  withLoops (extractStridedSlice S1x3200000 ![1, 0] e slices_S2x3200000_S1x3200000_1_0)

/-- An index vector as a column of start indices. -/
def asColumn (v : IVec S3300000 32) : IVec S3300000x1 32 :=
  broadcastInDim S3300000x1 ![0] bcast_S3300000_S3300000x1_0 v

/-- Array indexing's treatment of a negative index: add the extent. -/
def wrapNegative (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- Each node's in-degree, self-loop included: ones scatter-added at the targets. -/
def degree (e : IVec S2x3200000 32) : FVec F S100000 .f32 :=
  Host.scatterAdd scatter_S100000_S3300000x1_S3300000_n_0_0_1
    (broadcastInDim S100000 ![] bcast_S_S100000 (constant S_ .f32 0x00000000#32))
    (asColumn (targets e))
    (broadcastInDim S3300000 ![] bcast_S_S3300000 (constant S_ .f32 0x3F800000#32))

/-- deg^(-1/2). -/
def invSqrtDegree (e : IVec S2x3200000 32) : FVec F S100000 .f32 := Host.rsqrt (degree (F := F) e)

/-- The symmetric normalisation of each edge: the product of its endpoints' factors. -/
def edgeNorm (e : IVec S2x3200000 32) : FVec F S3300000 .f32 :=
  mulf (Host.gather gather_S100000_S3300000x1_S3300000_n_0_n_n_0_1_1 (invSqrtDegree (F := F) e) (asColumn (wrapNegative (sources e))))
    (Host.gather gather_S100000_S3300000x1_S3300000_n_0_n_n_0_1_1 (invSqrtDegree (F := F) e) (asColumn (wrapNegative (targets e))))

/-- Each edge's message: the source's row of `h`, scaled. -/
def messages (h : FVec F S100000x32 .f32) (e : IVec S2x3200000 32) : FVec F S3300000x32 .f32 :=
  mulf (Host.gather gather_S100000x32_S3300000x1_S3300000x32_1_0_n_n_0_1_132 h (asColumn (wrapNegative (sources e))))
    (broadcastInDim S3300000x32 ![0, 1] bcast_S3300000x1_S3300000x32_0_1
      (broadcastInDim S3300000x1 ![0] bcast_S3300000_S3300000x1_0 (edgeNorm (F := F) e)))

/-- The aggregated rows: the messages scatter-added at their targets. -/
def aggregate (h : FVec F S100000x32 .f32) (e : IVec S2x3200000 32) : FVec F S100000x32 .f32 :=
  Host.scatterAdd scatter_S100000x32_S3300000x1_S3300000x32_1_0_0_1
    (broadcastInDim S100000x32 ![] bcast_S_S100000x32 (constant S_ .f32 0x00000000#32))
    (asColumn (targets e))
    (messages h e)

end Cert.Gcn

end
-- ==== Proof.Spec.lean ====
/-
  The mathematics both programs compute, over plain functions of coordinates on the extended reals.

  A graph convolution followed by a classifier head. With X the node features and W1, b1, W2, b2 the weights:
  the first dense layer is the matrix product H = X · W1 (`hidden`); the graph stage replaces each node's row of H by
  a degree-normalised sum over its in-neighbours (self-loops included); the head adds b1, takes the positive part,
  multiplies by W2, adds b2 (`logit`) and subtracts from each row its log-sum-exp, computed stably around the row's
  maximum. The kernel subtracts  m + log Σ exp (x − m)  from x in one step (`logSoftmaxFused`); the reference subtracts
  m first and log Σ exp (x − m) afterwards (`logSoftmaxShifted`). On real numbers these are the same number.
-/
import Idealize.ShloMosaic.PureOps.Ideal
import Idealize.ShloMosaic.Lib.ValueIdx

noncomputable section

namespace Cert.Gcn

open Idealize.ShloMosaic

/-- An extended real that is a real number (neither infinity). -/
def IsReal (x : EReal) : Prop := ∃ r : ℝ, x = (r : EReal)

/-- A two-axis array read through its coordinates. -/
def arr2 {a b : Nat} (f : Fin a → Fin b → EReal) : (⟨2, ![a, b]⟩ : Shape).Idx → EReal := fun i => f (i 0) (i 1)

theorem arr2_ix2 {a b : Nat} (f : Fin a → Fin b → EReal) (p : Fin a) (q : Fin b) : arr2 f (ValueIdx.ix2 p q) = f p q := rfl

/-- Two two-axis arrays that agree at every pair of coordinates are equal. -/
theorem ext_ix2 {a b : Nat} {A B : (⟨2, ![a, b]⟩ : Shape).Idx → EReal}
    (h : ∀ (p : Fin a) (q : Fin b), A (ValueIdx.ix2 p q) = B (ValueIdx.ix2 p q)) : A = B := by
  funext i; rw [ValueIdx.eq_ix2 i]; exact h _ _

/-- The first dense layer: entry (n, j) of X · W1, a sum over the 256 input features. -/
def hidden (x : Fin 100000 → Fin 256 → EReal) (w : Fin 256 → Fin 32 → EReal) (n : Fin 100000) (j : Fin 32) : EReal :=
  ∑ k : Fin 256, x n k * w k j

/-- The class scores of node `n`: positive part of the aggregated row plus bias, times W2, plus b2. -/
def logit (a : Fin 100000 → Fin 32 → EReal) (b1 : Fin 32 → EReal) (w2 : Fin 32 → Fin 10 → EReal) (b2 : Fin 10 → EReal)
    (n : Fin 100000) (q : Fin 10) : EReal :=
  (∑ k : Fin 32, max (a n k + b1 k) 0 * w2 k q) + b2 q

/-- A row's maximum, as the fold of `max` from −∞ over its ten entries. -/
def rowMax (x : Fin 10 → EReal) : EReal := (Finset.univ : Finset (Fin 10)).fold max ⊥ x

/-- The sum of the exponentials of a row shifted by its maximum. -/
def shiftedExpSum (x : Fin 10 → EReal) : EReal := ∑ j : Fin 10, Ideal.exp (x j - rowMax x)

/-- Log-softmax as the kernel arranges it: x − (m + log Σ exp (x − m)). -/
def logSoftmaxFused (x : Fin 10 → EReal) (q : Fin 10) : EReal := x q - (rowMax x + Ideal.log (shiftedExpSum x))

/-- Log-softmax as the reference arranges it: (x − m) − log Σ exp (x − m). -/
def logSoftmaxShifted (x : Fin 10 → EReal) (q : Fin 10) : EReal := (x q - rowMax x) - Ideal.log (shiftedExpSum x)

end Cert.Gcn

end
-- ==== Proof.Dense.lean ====
/-
  What the first pallas_call leaves in its result array, read at an entry: the array is X · W1. Each grid point writes
  a block of 5000 rows whose entries are the sums, over the 256 input features, of a feature row times a column of W1;
  the twenty blocks tile the 100000 rows.
-/
import proofs.«150231_j42374147342661_1_alg».proof.Proof.Gen.KernelIdeal.Frame
import proofs.«150231_j42374147342661_1_alg».proof.Proof.Spec
import Idealize.ShloMosaic.PureOps.Ideal.Laws
import Idealize.ShloMosaic.Lib.Pipeline.Value
import Idealize.ShloMosaic.Lib.ValueLayout

noncomputable section

namespace Cert.Gcn

open Idealize.ShloMosaic Idealize.ShloMosaic.TcCoe Idealize.ShloMosaic.ValueIdx Idealize.SL.Sem Cert.KernelIdeal Cert.KernelIdeal.Gen

open Idealize.ShloMosaic.Pipeline (Dat)

variable (V : (c : Dev nD) → (b : Ref sig .tc) → Buf (Elt Ideal) ((c : Thread nD τ).loc b))

/-! ## The block product at an entry -/

/-- The left operand of the block product is read at the output's row, -/
theorem lhs_dense_0 (i : S5000x32.Idx) (q : Cert.KernelIdeal.dot_S5000x256_S256x32_S5000x32_1_0_0_1_n_n.contr.Idx) :
    (Cert.KernelIdeal.dot_S5000x256_S256x32_S5000x32_1_0_0_1_n_n.lhsIdx i q 0).val = (i 0).val := by
  unfold DotDims.lhsIdx
  rw [dif_neg (show ¬(0 : Fin S5000x256.rank) ∈ Cert.KernelIdeal.dot_S5000x256_S256x32_S5000x32_1_0_0_1_n_n.lhsBatch by decide), dif_pos (show (0 : Fin S5000x256.rank) ∈ Cert.KernelIdeal.dot_S5000x256_S256x32_S5000x32_1_0_0_1_n_n.lhsNonContracting by decide)]
  rfl
/-- and at the contracted feature; -/
theorem lhs_dense_1 (i : S5000x32.Idx) (q : Cert.KernelIdeal.dot_S5000x256_S256x32_S5000x32_1_0_0_1_n_n.contr.Idx) :
    (Cert.KernelIdeal.dot_S5000x256_S256x32_S5000x32_1_0_0_1_n_n.lhsIdx i q 1).val = (q ⟨0, by decide⟩).val :=
  Cert.KernelIdeal.dot_S5000x256_S256x32_S5000x32_1_0_0_1_n_n.lhsIdx_val_of_single rfl i q
/-- the right operand at the contracted feature, -/
theorem rhs_dense_0 (i : S5000x32.Idx) (q : Cert.KernelIdeal.dot_S5000x256_S256x32_S5000x32_1_0_0_1_n_n.contr.Idx) :
    (Cert.KernelIdeal.dot_S5000x256_S256x32_S5000x32_1_0_0_1_n_n.rhsIdx i q 0).val = (q ⟨0, by decide⟩).val :=
  Cert.KernelIdeal.dot_S5000x256_S256x32_S5000x32_1_0_0_1_n_n.rhsIdx_val_of_single rfl i q
/-- and at the output's column. -/
theorem rhs_dense_1 (i : S5000x32.Idx) (q : Cert.KernelIdeal.dot_S5000x256_S256x32_S5000x32_1_0_0_1_n_n.contr.Idx) :
    (Cert.KernelIdeal.dot_S5000x256_S256x32_S5000x32_1_0_0_1_n_n.rhsIdx i q 1).val = (i 1).val := by
  unfold DotDims.rhsIdx
  rw [dif_neg (show ¬(1 : Fin S256x32.rank) ∈ Cert.KernelIdeal.dot_S5000x256_S256x32_S5000x32_1_0_0_1_n_n.rhsBatch by decide), dif_pos (show (1 : Fin S256x32.rank) ∈ Cert.KernelIdeal.dot_S5000x256_S256x32_S5000x32_1_0_0_1_n_n.rhsNonContracting by decide)]
  rfl

/-- Entry (p, j) of the body's payload: the sum over the 256 features of the feature block's row p times column j of
    the weights (the narrowing of the operands is the identity on the extended reals, the accumulator is zero). -/
theorem block_product_apply (x0 : Vec Ideal S5000x256 .f32) (x1 : Vec Ideal S256x32 .f32) (p : Fin 5000) (j : Fin 32) :
    k0_pay1 (F := Ideal) x0 x1 (ix2 p j) = ∑ k : Fin 256, x0 (ix2 p k) * x1 (ix2 k j) := by
  unfold k0_pay1
  refine (Ideal.matmul_constant_zero_apply Cert.KernelIdeal.dot_S5000x256_S256x32_S5000x32_1_0_0_1_n_n none _ _ (ix2 p j)).trans ?_
  rw [← Equiv.sum_comp (contrEquiv1 Cert.KernelIdeal.dot_S5000x256_S256x32_S5000x32_1_0_0_1_n_n 256 rfl rfl).symm]
  refine Finset.sum_congr rfl fun k _ => ?_
  have hk := contrEquiv1_symm_val Cert.KernelIdeal.dot_S5000x256_S256x32_S5000x32_1_0_0_1_n_n 256 rfl rfl k
  have el : Cert.KernelIdeal.dot_S5000x256_S256x32_S5000x32_1_0_0_1_n_n.lhsIdx (ix2 p j) ((contrEquiv1 Cert.KernelIdeal.dot_S5000x256_S256x32_S5000x32_1_0_0_1_n_n 256 rfl rfl).symm k) = ix2 p k := funext fun a => Fin.ext (by
    match a with
    | ⟨0, _⟩ => exact lhs_dense_0 _ _
    | ⟨1, _⟩ => exact (lhs_dense_1 _ _).trans hk)
  have er : Cert.KernelIdeal.dot_S5000x256_S256x32_S5000x32_1_0_0_1_n_n.rhsIdx (ix2 p j) ((contrEquiv1 Cert.KernelIdeal.dot_S5000x256_S256x32_S5000x32_1_0_0_1_n_n 256 rfl rfl).symm k) = ix2 k j := funext fun a => Fin.ext (by
    match a with
    | ⟨0, _⟩ => exact (rhs_dense_0 _ _).trans hk
    | ⟨1, _⟩ => exact rhs_dense_1 _ _)
  rw [el, er]
  rfl

/-! ## The whole array -/

/-- X · W1 as an array: entry (n, j) is `hidden` of the feature and weight arrays as the region finds them. -/
def denseArray (c : Dev nD) : S100000x32.Idx → Elt Ideal .f32 :=
  arr2 (hidden (fun n k => V c main_arg0 (ix2 n k)) (fun k j => V c main_arg2 (ix2 k j)))

theorem origin_eq : (![0, 0] : Fin 2 → Nat) = fun _ => 0 := funext fun a => by fin_cases a <;> rfl

/-- The printed index maps, decided over the grid: the feature window moves with the result window along the rows and
    stays at column block 0; the weight window is the whole array at every point. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the twenty row blocks is some point's. -/
theorem block_of_row : ∀ q : Fin 20, ∃ t : Fin cfg0.N, win0_2.index t = ![q.val, 0] :=
  (by decide +kernel : ∀ q : Fin 20, ∃ t : Fin grid0.N, win0_2.index t = ![q.val, 0])

/-- WHAT POINT t WRITES BACK is block t of X · W1: the feature block's row p is row 5000 t + p of X, the weight block is
    W1 itself, so the payload's entry (p, q) is entry (5000 t + p, q) of the product. -/
theorem written_block (c : Dev nD) (t : Fin cfg0.N) :
    (dat0 (F := Ideal) V c).flushed 2 t = ((cfg0.win 2).blk t).view.read (Elt Ideal) (denseArray V c) := by
  show (cfg0.win 2).cut (grid0.coords t) ((dat0 (F := Ideal) V c).after 2 t) = _
  rw [after0_2]
  unfold out0_2
  rw [View.canon_unit_zero origin_eq]
  simp only [View.ld_unit_zero (S := S5000x256) origin_eq, View.ld_unit_zero (S := S256x32) origin_eq]
  obtain ⟨e0, e1, e2, e3, e4⟩ := block_indices t
  funext y
  show k0_pay1 (F := Ideal) (iblk0 V c 0 t) (iblk0 V c 1 t) y = denseArray V c (((cfg0.win 2).blk t).view.emb y)
  obtain ⟨p, q, rfl⟩ : ∃ (p : Fin 5000) (q : Fin 32), y = ix2 p q := ⟨y 0, y 1, eq_ix2 y⟩
  refine (block_product_apply (iblk0 V c 0 t) (iblk0 V c 1 t) p q).trans ?_
  unfold denseArray arr2 hidden
  refine Finset.sum_congr rfl fun k _ => ?_
  have hx : iblk0 V c 0 t (ix2 p k) = V c main_arg0 (ix2 ((((cfg0.win 2).blk t).view.emb (ix2 p q)) 0) k) := by
    show V c main_arg0 (((cfg0.win 0).blk t).view.emb (ix2 p k)) = V c main_arg0 _
    congr 1; funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have hw : iblk0 V c 1 t (ix2 k q) = V c main_arg2 (ix2 k ((((cfg0.win 2).blk t).view.emb (ix2 p q)) 1)) := by
    show V c main_arg2 (((cfg0.win 1).blk t).view.emb (ix2 k q)) = V c main_arg2 _
    congr 1; funext a; apply Fin.ext
    match a with
    | ⟨0, _⟩ => show win0_1.index t (0 : Fin 2) * 256 + 1 * k.val = k.val; omega
    | ⟨1, _⟩ => show win0_1.index t (1 : Fin 2) * 32 + 1 * q.val = win0_2.index t (1 : Fin 2) * 32 + 1 * q.val; omega
  rw [hx, hw]

/-- An index of the result array is in point t's block iff each coordinate is in the block's range on its axis. -/
theorem mem_block (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v0).slice (win0_2.rect t)).set ↔ _
  rw [View.set_slice_whole, Rect.mem_set_unit]
  exact Iff.rfl

/-- The twenty blocks tile the array: row r lies in the block of the point whose row block is r / 5000. -/
theorem rows_covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := block_of_row ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- THE ARRAY after region 0 is X · W1. -/
theorem dense_result (c : Dev nD) : (dat0 (F := Ideal) V c).arrAt 2 cfg0.N = denseArray V c :=
  (dat0 (F := Ideal) V c).arrAt_eq_of_cover 2 (denseArray V c) (fun t _ => written_block V c t) rows_covered

/-- After region 0 the result array holds X · W1: grid point t writes rows 5000 t … 5000 t + 4999, each entry the
    matmul of the block's row with W1 into a zero accumulator, and the twenty blocks tile the 100000 rows. -/
theorem hidden_array (c : Dev nD) (n : Fin 100000) (j : Fin 32) :
    (dat0 (F := Ideal) V c).arrAt 2 cfg0.N (ix2 n j)
      = hidden (fun n k => V c main_arg0 (ix2 n k)) (fun k j => V c main_arg2 (ix2 k j)) n j := by
  rw [dense_result]
  rfl

end Cert.Gcn

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.Head.lean ====
/-
  What the second pallas_call leaves in its result array, read at an entry. The body's arithmetic at row p and class q of a
  block is the fused log-softmax of that row's class scores (positive part of the aggregated row plus bias, times W2, plus
  the second bias); each grid point writes back the block of 5000 rows it was given, and the twenty blocks tile the array.
-/
import proofs.«150231_j42374147342661_1_alg».proof.Proof.Gen.KernelIdeal.Frame
import proofs.«150231_j42374147342661_1_alg».proof.Proof.Spec
import proofs.«150231_j42374147342661_1_alg».proof.Proof.LibKeepdims
import Idealize.ShloMosaic.PureOps.Ideal.Laws
import Idealize.ShloMosaic.Lib.Pipeline.Value
import Idealize.ShloMosaic.Lib.ValueLayout

noncomputable section

namespace Cert.Gcn

open Idealize.ShloMosaic Idealize.ShloMosaic.TcCoe Idealize.ShloMosaic.ValueIdx Idealize.SL.Sem Cert.KernelIdeal Cert.KernelIdeal.Gen

open Idealize.ShloMosaic.Pipeline (Dat)

variable (V : (c : Dev nD) → (b : Ref sig .tc) → Buf (Elt Ideal) ((c : Thread nD τ).loc b))

namespace HeadBlock

/-! ## The matrix product's operand indices -/

theorem lhs_scores_0 (i : S5000x10.Idx) (q : Cert.KernelIdeal.dot_S5000x32_S32x10_S5000x10_1_0_0_1_n_n.contr.Idx) :
    (Cert.KernelIdeal.dot_S5000x32_S32x10_S5000x10_1_0_0_1_n_n.lhsIdx i q 0).val = (i 0).val := by
  unfold DotDims.lhsIdx
  rw [dif_neg (show ¬(0 : Fin S5000x32.rank) ∈ Cert.KernelIdeal.dot_S5000x32_S32x10_S5000x10_1_0_0_1_n_n.lhsBatch by decide), dif_pos (show (0 : Fin S5000x32.rank) ∈ Cert.KernelIdeal.dot_S5000x32_S32x10_S5000x10_1_0_0_1_n_n.lhsNonContracting by decide)]
  rfl
theorem lhs_scores_1 (i : S5000x10.Idx) (q : Cert.KernelIdeal.dot_S5000x32_S32x10_S5000x10_1_0_0_1_n_n.contr.Idx) :
    (Cert.KernelIdeal.dot_S5000x32_S32x10_S5000x10_1_0_0_1_n_n.lhsIdx i q 1).val = (q ⟨0, by decide⟩).val :=
  Cert.KernelIdeal.dot_S5000x32_S32x10_S5000x10_1_0_0_1_n_n.lhsIdx_val_of_single rfl i q
theorem rhs_scores_0 (i : S5000x10.Idx) (q : Cert.KernelIdeal.dot_S5000x32_S32x10_S5000x10_1_0_0_1_n_n.contr.Idx) :
    (Cert.KernelIdeal.dot_S5000x32_S32x10_S5000x10_1_0_0_1_n_n.rhsIdx i q 0).val = (q ⟨0, by decide⟩).val :=
  Cert.KernelIdeal.dot_S5000x32_S32x10_S5000x10_1_0_0_1_n_n.rhsIdx_val_of_single rfl i q
theorem rhs_scores_1 (i : S5000x10.Idx) (q : Cert.KernelIdeal.dot_S5000x32_S32x10_S5000x10_1_0_0_1_n_n.contr.Idx) :
    (Cert.KernelIdeal.dot_S5000x32_S32x10_S5000x10_1_0_0_1_n_n.rhsIdx i q 1).val = (i 1).val := by
  unfold DotDims.rhsIdx
  rw [dif_neg (show ¬(1 : Fin S32x10.rank) ∈ Cert.KernelIdeal.dot_S5000x32_S32x10_S5000x10_1_0_0_1_n_n.rhsBatch by decide), dif_pos (show (1 : Fin S32x10.rank) ∈ Cert.KernelIdeal.dot_S5000x32_S32x10_S5000x10_1_0_0_1_n_n.rhsNonContracting by decide)]
  rfl

/-- The block's class scores as the body computes them: positive part of rows plus bias row, times the weights, plus the second bias row. -/
def blockScores (x0 : Vec Ideal S5000x32 .f32) (x1 : Vec Ideal S1x32 .f32) (x2 : Vec Ideal S32x10 .f32) (x3 : Vec Ideal S1x10 .f32) : FVec Ideal S5000x10 .f32 :=
  addf
    (matmul Cert.KernelIdeal.dot_S5000x32_S32x10_S5000x10_1_0_0_1_n_n none
      (truncf .bf16 (maximumf (addf (shapeCast S5000x32 x0 shapeCasts_S5000x32_S5000x32) (broadcastTo S5000x32 (shapeCast S1x32 x1 shapeCasts_S1x32_S1x32) broadcasts_S1x32_S5000x32))
        (broadcast S5000x32 (Scalar.ofBits .f32 0x00000000#32))) bitsLt_bf16_f32)
      (truncf .bf16 x2 bitsLt_bf16_f32) (constant S5000x10 .f32 0x00000000#32))
    (broadcastTo S5000x10 (shapeCast S1x10 x3 shapeCasts_S1x10_S1x10) broadcasts_S1x10_S5000x10)

/-- The fused log-softmax of a block of scores as the body computes it. -/
def blockFused (v15 : FVec Ideal S5000x10 .f32) : FVec Ideal S5000x10 .f32 :=
  have v16 : FVec Ideal S5000 .f32 := multiReduction .maximumf [1] S5000 v15 0xFF800000#32 reduces_S5000x10_S5000 (.inl rfl) rfl
  have v17 : FVec Ideal S5000x1 .f32 := shapeCast S5000x1 v16 shapeCasts_S5000_S5000x1
  have v18 : FVec Ideal S5000x10 .f32 := broadcastTo S5000x10 v17 broadcasts_S5000x1_S5000x10
  have v19 : FVec Ideal S5000x10 .f32 := subf v15 v18
  have v20 : FVec Ideal S5000x10 .f32 := exp v19
  have v21 : FVec Ideal S5000 .f32 := multiReduction .add [1] S5000 v20 0x00000000#32 reduces_S5000x10_S5000 (.inl rfl) rfl
  have v22 : FVec Ideal S5000x1 .f32 := shapeCast S5000x1 v21 shapeCasts_S5000_S5000x1
  have v23 : FVec Ideal S5000x1 .f32 := log v22
  have v24 : FVec Ideal S5000x1 .f32 := addf v17 v23
  have v25 : FVec Ideal S5000x10 .f32 := broadcastTo S5000x10 v24 broadcasts_S5000x1_S5000x10
  subf v15 v25

theorem pay_eq (x0 : Vec Ideal S5000x32 .f32) (x1 : Vec Ideal S1x32 .f32) (x2 : Vec Ideal S32x10 .f32) (x3 : Vec Ideal S1x10 .f32) :
    k1_pay1 (F := Ideal) x0 x1 x2 x3 = blockFused (blockScores x0 x1 x2 x3) := rfl

/-- The block's scores at row p, class q. -/
theorem blockScores_apply (x0 : Vec Ideal S5000x32 .f32) (x1 : Vec Ideal S1x32 .f32) (x2 : Vec Ideal S32x10 .f32) (x3 : Vec Ideal S1x10 .f32)
    (p : Fin 5000) (q : Fin 10) :
    blockScores x0 x1 x2 x3 (ix2 p q)
      = (∑ k : Fin 32, max (x0 (ix2 p k) + x1 (ix2 (0 : Fin 1) k)) 0 * x2 (ix2 k q)) + x3 (ix2 (0 : Fin 1) q) := by
  unfold blockScores
  rw [addf_apply, broadcastTo_1b_ab_apply, shapeCast_self, shapeCast_self, shapeCast_self]
  congr 1
  simp only [matmul]
  rw [Ideal.matmul_constant_zero_apply, ← Equiv.sum_comp (ValueIdx.contrEquiv1 Cert.KernelIdeal.dot_S5000x32_S32x10_S5000x10_1_0_0_1_n_n 32 rfl rfl).symm]
  refine Finset.sum_congr rfl fun k _ => ?_
  have hk := ValueIdx.contrEquiv1_symm_val Cert.KernelIdeal.dot_S5000x32_S32x10_S5000x10_1_0_0_1_n_n 32 rfl rfl k
  have el : Cert.KernelIdeal.dot_S5000x32_S32x10_S5000x10_1_0_0_1_n_n.lhsIdx (ix2 p q) ((ValueIdx.contrEquiv1 Cert.KernelIdeal.dot_S5000x32_S32x10_S5000x10_1_0_0_1_n_n 32 rfl rfl).symm k) = ix2 p k := funext fun a => Fin.ext (by
    match a with
    | ⟨0, _⟩ => exact lhs_scores_0 _ _
    | ⟨1, _⟩ => exact (lhs_scores_1 _ _).trans hk)
  have er : Cert.KernelIdeal.dot_S5000x32_S32x10_S5000x10_1_0_0_1_n_n.rhsIdx (ix2 p q) ((ValueIdx.contrEquiv1 Cert.KernelIdeal.dot_S5000x32_S32x10_S5000x10_1_0_0_1_n_n 32 rfl rfl).symm k) = ix2 k q := funext fun a => Fin.ext (by
    match a with
    | ⟨0, _⟩ => exact (rhs_scores_0 _ _).trans hk
    | ⟨1, _⟩ => exact rhs_scores_1 _ _)
  rw [el, er, truncf_apply, truncf_apply, maximumf_apply, addf_apply, broadcastTo_1b_ab_apply, broadcast_apply]
  show max _ (Ideal.ofBits .f32 0x00000000#32) * _ = _
  rw [Ideal.ofBits_zero_f32]

/-- A row's maximum: the reduction along the classes, started from −∞, at row p. -/
theorem rowMax_apply (src : FVec Ideal S5000x10 .f32) (h : S5000x10.Reduces [1] S5000) (hφ : FKind.Formats FTy.f32)
    (hacc : (0xFF800000#32 : BitVec 32) = 0xFF800000#32) (p : Fin 5000) :
    multiReduction (F := Ideal) .maximumf [1] S5000 src 0xFF800000#32 h hφ hacc (ix1 p) = rowMax (fun j => src (ix2 p j)) := by
  refine (Ideal.multiReduction_maximumf_single src _ h hφ hacc (ix1 p)).trans ?_
  have e : (FloatOps.ofBits .f32 0xFF800000#32 : Ideal .f32) = (⊥ : EReal) := by
    show Ideal.ofBits .f32 0xFF800000#32 = ⊥
    simp [Ideal.ofBits, Ideal.ieee]
  have f : (src ∘ h.lift (ix1 p)) = fun j : Fin 10 => src (ix2 p j) := funext fun k => congrArg src (funext fun ax => Fin.ext (by
    match ax with
    | ⟨0, _⟩ => rfl
    | ⟨1, _⟩ => rfl))
  rw [e, f]
  rfl

/-- The body's last stretch at row p, class q: the fused log-softmax of the row of scores. -/
theorem blockFused_apply (v : FVec Ideal S5000x10 .f32) (p : Fin 5000) (q : Fin 10) :
    blockFused v (ix2 p q) = logSoftmaxFused (fun j => v (ix2 p j)) q := by
  unfold blockFused logSoftmaxFused shiftedExpSum
  rw [subf_apply, Cert.Keepdims.broadcastTo_a1_ab_apply, addf_apply, Cert.Keepdims.shapeCast_a_a1_apply, rowMax_apply]
  congr 2
  show Ideal.log (shapeCast S5000x1 _ shapeCasts_S5000_S5000x1 (ix2 p (0 : Fin 1))) = _
  rw [Cert.Keepdims.shapeCast_a_a1_apply, Cert.Keepdims.rowSum_apply]
  refine congrArg Ideal.log (Finset.sum_congr rfl fun j _ => ?_)
  show Ideal.exp (subf v _ (ix2 p j)) = _
  rw [subf_apply, Cert.Keepdims.broadcastTo_a1_ab_apply, Cert.Keepdims.shapeCast_a_a1_apply, rowMax_apply]

/-- The body's payload at row p, class q. -/
theorem pay_apply (x0 : Vec Ideal S5000x32 .f32) (x1 : Vec Ideal S1x32 .f32) (x2 : Vec Ideal S32x10 .f32) (x3 : Vec Ideal S1x10 .f32)
    (p : Fin 5000) (q : Fin 10) :
    k1_pay1 (F := Ideal) x0 x1 x2 x3 (ix2 p q)
      = logSoftmaxFused (fun j => (∑ k : Fin 32, max (x0 (ix2 p k) + x1 (ix2 (0 : Fin 1) k)) 0 * x2 (ix2 k j)) + x3 (ix2 (0 : Fin 1) j)) q := by
  rw [pay_eq, blockFused_apply]
  congr 1
  funext j
  exact blockScores_apply x0 x1 x2 x3 p j

/-! ## From blocks to the array -/

/-- The result array as one function of coordinates: at node n and class q, the fused log-softmax of the node's class scores. -/
def classScores (c : Dev nD) : S100000x10.Idx → EReal :=
  arr2 fun n q => logSoftmaxFused (logit (fun n k => V c main_v40 (ix2 n k)) (fun k => V c main_v41 (ix2 (0 : Fin 1) k))
    (fun k q => V c main_arg4 (ix2 k q)) (fun q => V c main_v42 (ix2 (0 : Fin 1) q)) n) q

theorem zero_offsets : (![0, 0] : Fin 2 → Nat) = fun _ => 0 := funext fun a => match a with | ⟨0, _⟩ => rfl | ⟨1, _⟩ => rfl

/-- The windows' block indices at grid point t: the aggregated rows and the result move with t along the rows; the bias rows and
    the weights stay at block (0, 0). -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Grid point t's block of the aggregated rows is rows 5000 t … 5000 t + 4999 of the array. -/
theorem agg_block (c : Dev nD) (t : Fin cfg1.N) (p : Fin 5000) (k : Fin 32) (n : Fin 100000) (hn : n.val = t.val * 5000 + p.val) :
    (iblk1 (F := Ideal) V c 0 t : Vec Ideal S5000x32 .f32) (ix2 p k) = V c main_v40 (ix2 n k) := by
  obtain ⟨e0, e1, -⟩ := block_index t
  unfold iblk1
  rw [View.read_apply]
  show V c main_v40 _ = V c main_v40 _
  congr 1
  funext a
  apply Fin.ext
  match a with
  | ⟨0, _⟩ => show win1_0.index t (0 : Fin 2) * 5000 + 1 * p.val = n.val; omega
  | ⟨1, _⟩ => show win1_0.index t (1 : Fin 2) * 32 + 1 * k.val = k.val; omega

/-- Every grid point's block of the first bias row is the whole row. -/
theorem bias1_block (c : Dev nD) (t : Fin cfg1.N) (k : Fin 32) :
    (iblk1 (F := Ideal) V c 1 t : Vec Ideal S1x32 .f32) (ix2 (0 : Fin 1) k) = V c main_v41 (ix2 (0 : Fin 1) k) := by
  obtain ⟨-, -, e0, e1, -⟩ := block_index t
  unfold iblk1
  rw [View.read_apply]
  show V c main_v41 _ = V c main_v41 _
  congr 1
  funext a
  apply Fin.ext
  match a with
  | ⟨0, _⟩ => show win1_1.index t (0 : Fin 2) * 1 + 1 * (0 : Fin 1).val = (0 : Fin 1).val; omega
  | ⟨1, _⟩ => show win1_1.index t (1 : Fin 2) * 32 + 1 * k.val = k.val; omega

/-- Every grid point's block of the weights is the whole matrix. -/
theorem weights_block (c : Dev nD) (t : Fin cfg1.N) (k : Fin 32) (q : Fin 10) :
    (iblk1 (F := Ideal) V c 2 t : Vec Ideal S32x10 .f32) (ix2 k q) = V c main_arg4 (ix2 k q) := by
  obtain ⟨-, -, -, -, e0, e1, -⟩ := block_index t
  unfold iblk1
  rw [View.read_apply]
  show V c main_arg4 _ = V c main_arg4 _
  congr 1
  funext a
  apply Fin.ext
  match a with
  | ⟨0, _⟩ => show win1_2.index t (0 : Fin 2) * 32 + 1 * k.val = k.val; omega
  | ⟨1, _⟩ => show win1_2.index t (1 : Fin 2) * 10 + 1 * q.val = q.val; omega

/-- Every grid point's block of the second bias row is the whole row. -/
theorem bias2_block (c : Dev nD) (t : Fin cfg1.N) (q : Fin 10) :
    (iblk1 (F := Ideal) V c 3 t : Vec Ideal S1x10 .f32) (ix2 (0 : Fin 1) q) = V c main_v42 (ix2 (0 : Fin 1) q) := by
  obtain ⟨-, -, -, -, -, -, e0, e1, -⟩ := block_index t
  unfold iblk1
  rw [View.read_apply]
  show V c main_v42 _ = V c main_v42 _
  congr 1
  funext a
  apply Fin.ext
  match a with
  | ⟨0, _⟩ => show win1_3.index t (0 : Fin 2) * 1 + 1 * (0 : Fin 1).val = (0 : Fin 1).val; omega
  | ⟨1, _⟩ => show win1_3.index t (1 : Fin 2) * 10 + 1 * q.val = q.val; omega

/-- What grid point t writes back is block t of `classScores`: the payload at (p, q) is the fused log-softmax of the block's
    scores, the result's block sits at rows 5000 t + p, and each input block reads its array at the same rows (the aggregated
    rows) or whole (the bias rows, the weights). -/
theorem head_flushed (c : Dev nD) (t : Fin cfg1.N) :
    (dat1 (F := Ideal) V c).flushed 4 t = ((cfg1.win 4).blk t).view.read (Elt Ideal) (classScores V c) := by
  show (cfg1.win 4).cut (grid1.coords t) ((dat1 (F := Ideal) V c).after 4 t) = _
  rw [after1_4]
  unfold out1_4
  rw [View.canon_unit_zero zero_offsets]
  simp only [View.ld_unit_zero (S := S5000x32) zero_offsets, View.ld_unit_zero (S := S1x32) zero_offsets,
    View.ld_unit_zero (S := S32x10) zero_offsets, View.ld_unit_zero (S := S1x10) zero_offsets]
  obtain ⟨-, -, -, -, -, -, -, -, e0, e1⟩ := block_index t
  have hN : cfg1.N = 20 := N_1
  have ht : t.val < cfg1.N := t.isLt
  funext y
  obtain ⟨p, q, rfl⟩ : ∃ (p : Fin 5000) (q : Fin 10), y = ix2 p q := ⟨y 0, y 1, eq_ix2 y⟩
  refine (pay_apply _ _ _ _ p q).trans ?_
  have hemb : ((cfg1.win 4).blk t).view.emb (ix2 p q) = ix2 (⟨t.val * 5000 + p.val, by omega⟩ : Fin 100000) q := by
    funext a
    apply Fin.ext
    match a with
    | ⟨0, _⟩ => show win1_4.index t (0 : Fin 2) * 5000 + 1 * p.val = t.val * 5000 + p.val; omega
    | ⟨1, _⟩ => show win1_4.index t (1 : Fin 2) * 10 + 1 * q.val = q.val; omega
  show _ = classScores V c (((cfg1.win 4).blk t).view.emb (ix2 p q))
  rw [hemb]
  show _ = logSoftmaxFused (logit _ _ _ _ (⟨t.val * 5000 + p.val, _⟩ : Fin 100000)) q
  refine congrArg (fun x => logSoftmaxFused x q) (funext fun j => ?_)
  unfold logit
  refine congrArg₂ (· + ·) (Finset.sum_congr rfl fun k _ => ?_) (bias2_block V c t j)
  beta_reduce
  rw [agg_block V c t p k (⟨t.val * 5000 + p.val, by omega⟩ : Fin 100000) rfl, bias1_block V c t k, weights_block V c t k j]

/-- An index of the result array is in grid point t's block iff each coordinate is in the block's range on its axis. -/
theorem mem_block (t : Fin cfg1.N) (i : S100000x10.Idx) :
    i ∈ ((cfg1.win 4).blk t).view.set ↔ ∀ a : Fin 2, win1_4.index t a * S5000x10.size a ≤ (i a).val ∧ (i a).val < win1_4.index t a * S5000x10.size a + S5000x10.size a := by
  show i ∈ ((View.whole main_v43).slice (win1_4.rect t)).set ↔ _
  rw [View.set_slice_whole, Rect.mem_set_unit]
  exact Iff.rfl

/-- Row r of the result array lies in the block of grid point r / 5000: the twenty blocks tile the 100000 rows. -/
theorem rows_covered (i : S100000x10.Idx) : ∃ t : Fin cfg1.N, (cfg1.win 4).flush t = true ∧ i ∈ ((cfg1.win 4).blk t).view.set := by
  have hN : cfg1.N = 20 := N_1
  have hi0 : (i 0).val < 100000 := (i 0).isLt
  have hi1 : (i 1).val < 10 := (i 1).isLt
  obtain ⟨t, ht⟩ : ∃ t : Fin cfg1.N, t.val = (i 0).val / 5000 := ⟨⟨(i 0).val / 5000, by omega⟩, rfl⟩
  obtain ⟨-, -, -, -, -, -, -, -, e0, e1⟩ := block_index t
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 10 ≤ (i 1).val ∧ (i 1).val < win1_4.index t (1 : Fin 2) * 10 + 10; omega

end HeadBlock

/-- After region 1 the result array holds, at node n and class q, the fused log-softmax of the node's class scores:
    grid point t writes rows 5000 t … 5000 t + 4999 from the same rows of the aggregated array and the whole of the
    bias rows and W2, and the twenty blocks tile the 100000 rows. -/
theorem classes_array (c : Dev nD) (n : Fin 100000) (q : Fin 10) :
    (dat1 (F := Ideal) V c).arrAt 4 cfg1.N (ix2 n q)
      = logSoftmaxFused (logit (fun n k => V c main_v40 (ix2 n k)) (fun k => V c main_v41 (ix2 (0 : Fin 1) k))
          (fun k q => V c main_arg4 (ix2 k q)) (fun q => V c main_v42 (ix2 (0 : Fin 1) q)) n) q := by
  rw [(dat1 (F := Ideal) V c).arrAt_eq_of_cover 4 (HeadBlock.classScores V c) (fun t _ => HeadBlock.head_flushed V c t) HeadBlock.rows_covered]
  rfl

end Cert.Gcn

end
-- ==== Proof.Extended.lean ====
/-
  Real-number facts about the extended-real specification: the real numbers inside the extended reals are closed
  under the arithmetic the two programs apply (sums, products, maxima, finite sums, the reciprocal square root of a
  positive number), so the dense layer and the class scores of real inputs are real; and on a row of real numbers
  the two arrangements of log-softmax, (x − m) − log Σ and x − (m + log Σ), are the same real number.
-/
import proofs.«150231_j42374147342661_1_alg».proof.Proof.Spec
import Mathlib.Data.EReal.Operations
import Mathlib.Algebra.BigOperators.Group.Finset.Basic
import Mathlib.Algebra.Order.BigOperators.Group.Finset
import Mathlib.Analysis.SpecialFunctions.Exp

noncomputable section

namespace Cert.Gcn

open Idealize.ShloMosaic Idealize.ShloMosaic.TcCoe Idealize.ShloMosaic.ValueIdx Idealize.SL.Sem

/-! ## Real values are closed under the operations the programs apply -/

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  -- the maximum of two numbers is one of them
  rcases le_total x y with h | h
  · rw [max_eq_right h]; exact hy
  · rw [max_eq_left h]; exact hx
theorem isReal_zero : IsReal 0 := ⟨0, EReal.coe_zero.symm⟩
theorem isReal_one : IsReal 1 := ⟨1, EReal.coe_one.symm⟩
theorem isReal_coe (r : ℝ) : IsReal (r : EReal) := ⟨r, rfl⟩
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih (fun i hi => h i (Finset.mem_insert_of_mem hi)))
/-- A sum of ones over a finite set is its cardinality. -/
theorem sum_one_eq_card {ι : Type} (s : Finset ι) : (∑ _i ∈ s, (1 : EReal)) = ((s.card : ℝ) : EReal) := by
  classical
  induction s using Finset.induction_on with
  | empty => rw [Finset.sum_empty, Finset.card_empty, Nat.cast_zero, EReal.coe_zero]
  | insert a s ha ih =>
    rw [Finset.sum_insert ha, ih, Finset.card_insert_of_notMem ha, Nat.cast_add, Nat.cast_one, EReal.coe_add,
      EReal.coe_one, add_comm]
/-- The reciprocal square root of a positive real is a real. -/
theorem isReal_rsqrt_of_pos {r : ℝ} (hr : 0 < r) : IsReal (Ideal.rsqrt (r : EReal)) := by
  rw [Ideal.rsqrt_coe, if_neg (not_lt.mpr hr.le), if_neg hr.ne']
  exact ⟨_, rfl⟩

theorem isReal_hidden (x : Fin 100000 → Fin 256 → EReal) (w : Fin 256 → Fin 32 → EReal)
    (hx : ∀ n k, IsReal (x n k)) (hw : ∀ k j, IsReal (w k j)) (n : Fin 100000) (j : Fin 32) : IsReal (hidden x w n j) := by
  unfold hidden
  exact isReal_sum _ _ (fun k _ => (hx n k).mul (hw k j))

theorem isReal_logit (a : Fin 100000 → Fin 32 → EReal) (b1 : Fin 32 → EReal) (w2 : Fin 32 → Fin 10 → EReal) (b2 : Fin 10 → EReal)
    (ha : ∀ n k, IsReal (a n k)) (hb1 : ∀ k, IsReal (b1 k)) (hw2 : ∀ k q, IsReal (w2 k q)) (hb2 : ∀ q, IsReal (b2 q))
    (n : Fin 100000) (q : Fin 10) : IsReal (logit a b1 w2 b2 n q) := by
  unfold logit
  exact (isReal_sum _ _ (fun k _ => (((ha n k).add (hb1 k)).max isReal_zero).mul (hw2 k q))).add (hb2 q)

/-! ## The two arrangements of log-softmax agree on a row of real numbers -/

/-- The inclusion of the reals commutes with finite sums. -/
theorem coe_finsum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The fold of `max` from −∞ over real values is −∞ on the empty set and a real number otherwise. -/
theorem fold_max_bot_or_isReal {ι : Type} (s : Finset ι) (g : ι → EReal) (hg : ∀ i ∈ s, IsReal (g i)) :
    (s = ∅ ∧ s.fold Max.max ⊥ g = ⊥) ∨ IsReal (s.fold Max.max ⊥ g) := by
  classical
  induction s using Finset.induction_on with
  | empty => exact Or.inl ⟨rfl, Finset.fold_empty⟩
  | insert a s ha ih =>
    refine Or.inr ?_
    rw [Finset.fold_insert ha]
    have hga : IsReal (g a) := hg a (Finset.mem_insert_self a s)
    rcases ih (fun i hi => hg i (Finset.mem_insert_of_mem hi)) with ⟨_, hbot⟩ | hreal
    · rw [hbot, max_eq_left bot_le]; exact hga
    · exact hga.max hreal

/-- The maximum of a row of reals is real. -/
theorem isReal_rowMax (x : Fin 10 → EReal) (hx : ∀ q, IsReal (x q)) : IsReal (rowMax x) := by
  unfold rowMax
  rcases fold_max_bot_or_isReal Finset.univ x (fun i _ => hx i) with ⟨hempty, _⟩ | hreal
  · exact absurd hempty (Finset.univ_nonempty (α := Fin 10)).ne_empty
  · exact hreal

/-- For a row of reals, Σ exp (x − m) is a positive real, so its logarithm is real. -/
theorem isReal_log_shiftedExpSum (x : Fin 10 → EReal) (hx : ∀ q, IsReal (x q)) :
    IsReal (Ideal.log (shiftedExpSum x)) := by
  obtain ⟨m, hm⟩ := isReal_rowMax x hx
  choose r hr using hx
  have hs : shiftedExpSum x = ((∑ j : Fin 10, Real.exp (r j - m) : ℝ) : EReal) := by
    unfold shiftedExpSum
    rw [coe_finsum]
    refine Finset.sum_congr rfl (fun j _ => ?_)
    rw [hr j, hm, ← EReal.coe_sub, Ideal.exp_coe]
  have hpos : 0 < ∑ j : Fin 10, Real.exp (r j - m) :=
    Finset.sum_pos (fun j _ => Real.exp_pos _) Finset.univ_nonempty
  rw [hs, Ideal.log_coe, if_neg (not_le.mpr hpos)]
  exact ⟨_, rfl⟩

/-- For a row of reals the maximum m is real, Σ exp (x − m) is a positive real and its logarithm is real, so
    (x − m) − log Σ = x − (m + log Σ) is plain arithmetic of real numbers. -/
theorem logSoftmax_arrangements (x : Fin 10 → EReal) (hx : ∀ q, IsReal (x q)) (q : Fin 10) :
    logSoftmaxShifted x q = logSoftmaxFused x q := by
  obtain ⟨m, hm⟩ := isReal_rowMax x hx
  obtain ⟨l, hl⟩ := isReal_log_shiftedExpSum x hx
  obtain ⟨a, ha⟩ := hx q
  unfold logSoftmaxShifted logSoftmaxFused
  rw [hl, hm, ha, ← EReal.coe_sub, ← EReal.coe_sub, ← EReal.coe_add, ← EReal.coe_sub, sub_sub]

end Cert.Gcn

end
-- ==== Proof.Degree.lean ====
/-
  Every node's in-degree is at least one. At the extended reals the degree is zero plus a sum of ones over the edge
  positions whose target is the node, that is, the number of such positions; the node's own self-loop is one of them,
  so the count is a natural number at least one.
-/
import proofs.«150231_j42374147342661_1_alg».proof.Proof.Graph
import proofs.«150231_j42374147342661_1_alg».proof.Proof.Extended
import Idealize.ShloMosaic.PureOps.Ideal.Laws
import Idealize.ShloMosaic.Lib.Pipeline.Value
import Idealize.ShloMosaic.Lib.StableHlo.Predicate

noncomputable section

namespace Cert.Gcn

open Idealize.ShloMosaic Idealize.ShloMosaic.TcCoe Idealize.ShloMosaic.ValueIdx Idealize.SL.Sem Cert.KernelIdeal Cert.KernelIdeal.Facts₀

namespace DegreeBound

/-! ## The target list at a self-loop position -/

/-- Position 3200000 + i of the target list lies past the 3200000 edges, in the appended self-loops 0 … N−1, and
    reads the word i. -/
theorem targets_selfLoop (e : IVec S2x3200000 32) (i : Fin 100000) (h : 3200000 + i.val < 3300000) :
    targets e (ix1 ⟨3200000 + i.val, h⟩) = BitVec.ofNat 32 i.val := by
  unfold targets withLoops
  rw [concatenate_pair_apply_right (0 : Fin S3300000.rank) _ _ concatenates_S3200000_S100000_S3300000_d0
    (ix1 ⟨3200000 + i.val, h⟩) rfl rfl (ix1 i)
    (fun b hb => absurd (Subsingleton.elim _ _) hb)
    (by show i.val + 3200000 = 3200000 + i.val; omega)]
  rfl

/-- The column of start indices at row p reads the vector at p. -/
theorem asColumn_apply (v : IVec S3300000 32) (p : Fin 3300000) :
    asColumn v (ix2 p (0 : Fin 1)) = v (ix1 p) := by
  unfold asColumn
  refine broadcastInDim_apply _ _ _ _ _ (fun a => ?_)
  have ha : a = 0 := Subsingleton.elim _ _
  subst ha
  rw [if_neg (show ¬ S3300000.size 0 = 1 by decide)]
  rfl

/-! ## Where the degree scatter sends an update position -/

/-- On the operand's one axis the window starts at the signed reading of the index column's entry in the update
    position's row: the axis is the one the scatter's index vector (of length one) names. -/
theorem scatter_start (j : S3300000.Idx) (idx : IVec S3300000x1 32) (a : Fin S100000.rank) :
    scatter_S100000_S3300000x1_S3300000_n_0_0_1.start j idx a = (idx (ix2 (j 0) 0)).toInt := by
  have ha : a = 0 := Subsingleton.elim _ _
  subst ha
  unfold ScatterDims.start
  rw [dif_pos (show (0 : Fin S100000.rank) ∈ scatter_S100000_S3300000x1_S3300000_n_0_0_1.scatterDimsToOperandDims by decide)]
  congr 2
  funext b
  match b with
  | ⟨0, _⟩ => rfl
  | ⟨1, _⟩ => rfl

/-- The operand's one axis is an inserted window axis, so the window coordinate on it is 0. -/
theorem scatter_window (j : S3300000.Idx) (a : Fin S100000.rank) :
    scatter_S100000_S3300000x1_S3300000_n_0_0_1.window j a = 0 := by
  have ha : a = 0 := Subsingleton.elim _ _
  subst ha
  unfold ScatterDims.window
  rw [dif_neg (show ¬ (0 : Fin S100000.rank) ∈ scatter_S100000_S3300000x1_S3300000_n_0_0_1.sKept by decide)]

/-- The self-loop position 3200000 + i lands on node i: its start index is the word i, read signed as i (which is
    below 2^31), the window coordinate is 0, and 0 ≤ i < 100000 is inside the operand. -/
theorem scatter_resultIdx_selfLoop (e : IVec S2x3200000 32) (i : Fin 100000) (h : 3200000 + i.val < 3300000) :
    scatter_S100000_S3300000x1_S3300000_n_0_0_1.resultIdx? (ix1 ⟨3200000 + i.val, h⟩) (asColumn (targets e))
      = some (ix1 i) := by
  have hs : ∀ a : Fin S100000.rank,
      scatter_S100000_S3300000x1_S3300000_n_0_0_1.start (ix1 ⟨3200000 + i.val, h⟩) (asColumn (targets e)) a
        + scatter_S100000_S3300000x1_S3300000_n_0_0_1.window (ix1 ⟨3200000 + i.val, h⟩) a = (i.val : Int) := by
    intro a
    rw [scatter_start, scatter_window]
    show ((asColumn (targets e) (ix2 (⟨3200000 + i.val, h⟩ : Fin 3300000) (0 : Fin 1))).toInt + ((0 : Nat) : Int)) = _
    rw [asColumn_apply, targets_selfLoop, StableHlo.Predicate.toInt_ofNat_small _ (by have := i.isLt; omega)]
    simp
  unfold ScatterDims.resultIdx?
  rw [dif_pos (fun a => by
    rw [hs a]
    have ha : a = 0 := Subsingleton.elim _ _
    subst ha
    refine ⟨by omega, ?_⟩
    show (i.val : Int) < (100000 : Nat)
    have := i.isLt; omega)]
  congr 1
  funext a
  apply Fin.ext
  have ha : a = 0 := Subsingleton.elim _ _
  subst ha
  show (_ + _ : Int).toNat = i.val
  rw [hs 0]
  simp

/-! ## The count -/

/-- The single-precision word 0x3F800000 is the number 1. -/
theorem ofBits_one_f32 : Ideal.ofBits .f32 0x3F800000#32 = 1 := by
  simp [Ideal.ofBits, Ideal.ieee, -EReal.coe_mul]; norm_num

/-- The constant zero operand reads the extended real 0 everywhere. -/
theorem zeros_apply (i : S100000.Idx) :
    broadcastInDim S100000 ![] bcast_S_S100000 (constant (F := Ideal) S_ .f32 0x00000000#32) i = (0 : EReal) :=
  Ideal.ofBits_zero_f32

/-- The constant one updates read the extended real 1 everywhere. -/
theorem ones_apply (j : S3300000.Idx) :
    broadcastInDim S3300000 ![] bcast_S_S3300000 (constant (F := Ideal) S_ .f32 0x3F800000#32) j = (1 : EReal) :=
  ofBits_one_f32

/-- Zero plus a sum of ones over a finite set with a member is a real number at least one: the set's cardinality. -/
theorem one_le_zero_add_card {ι : Type} (s : Finset ι) (j₀ : ι) (h : j₀ ∈ s) :
    ∃ r : ℝ, 1 ≤ r ∧ (0 : EReal) + ∑ _j ∈ s, (1 : EReal) = (r : EReal) := by
  refine ⟨(s.card : ℝ), ?_, by rw [zero_add, sum_one_eq_card]⟩
  have hpos : 0 < s.card := Finset.card_pos.mpr ⟨j₀, h⟩
  exact_mod_cast hpos

/-- A scatter-add of ones onto zero, read at an element that at least one update position lands on, is a real
    number at least one: zero plus the number of update positions that land there. Stated for any shapes, so that
    nothing about the particular extents enters. -/
theorem scatterAdd_ones_ge_one {s si u : Shape} {w : Nat} (d : ScatterDims s si u) (x : FVec Ideal s .f32)
    (idx : IVec si w) (upd : FVec Ideal u .f32) (i : s.Idx) (hx : x i = (0 : EReal)) (hu : ∀ j, upd j = (1 : EReal))
    (j₀ : u.Idx) (hj : d.resultIdx? j₀ idx = some i) :
    ∃ r : ℝ, 1 ≤ r ∧ Host.scatterAdd d x idx upd i = (r : EReal) := by
  unfold Host.scatterAdd
  rw [Ideal.hostScatterAdd_def]
  unfold Ideal.hostScatterAdd
  rw [hx, Finset.sum_congr rfl (fun j _ => hu j)]
  exact one_le_zero_add_card _ j₀ (Finset.mem_filter.mpr ⟨Finset.mem_univ _, hj⟩)

end DegreeBound

/-- Every node's degree is a real number at least one: at the extended reals the scatter-add of ones from zero is the
    number of edges whose target is the node, and the node's own self-loop (position 3200000 + i of the target list,
    whose entry is the word i) is one of them. -/
theorem degree_ge_one (e : IVec S2x3200000 32) (i : S100000.Idx) :
    ∃ r : ℝ, 1 ≤ r ∧ degree (F := Ideal) e i = (r : EReal) := by
  have hi : (i 0).val < 100000 := (i 0).isLt
  have hlt : 3200000 + (i 0).val < 3300000 := by omega
  have hres : scatter_S100000_S3300000x1_S3300000_n_0_0_1.resultIdx? (ix1 ⟨3200000 + (i 0).val, hlt⟩)
      (asColumn (targets e)) = some i := by
    rw [DegreeBound.scatter_resultIdx_selfLoop e (i 0) hlt]
    exact congrArg some (eq_ix1 i).symm
  exact DegreeBound.scatterAdd_ones_ge_one _ _ _ _ i (DegreeBound.zeros_apply i) DegreeBound.ones_apply _ hres

end Cert.Gcn

end
-- ==== Proof.GraphReal.lean ====
/-
  The graph stage keeps real values real: at the extended reals every node's degree is a real number at least one, so
  its reciprocal square root is real; an edge's normalisation and message are products of entries read from real
  arrays, and an aggregated entry is zero plus a finite sum of such messages.
-/
import proofs.«150231_j42374147342661_1_alg».proof.Proof.Graph
import proofs.«150231_j42374147342661_1_alg».proof.Proof.Extended
import proofs.«150231_j42374147342661_1_alg».proof.Proof.Degree
import Idealize.ShloMosaic.PureOps.Ideal.Laws
import Idealize.ShloMosaic.Lib.Pipeline.Value

noncomputable section

namespace Cert.Gcn

open Idealize.ShloMosaic Idealize.ShloMosaic.TcCoe Idealize.ShloMosaic.ValueIdx Idealize.SL.Sem Cert.KernelIdeal Cert.KernelIdeal.Facts₀

namespace Realness

/-! ## Operations that only read their operand, and sums of real entries -/

/-- A broadcast reads its operand at some index, so a broadcast of a real array is real everywhere. -/
theorem isReal_broadcastInDim {s t : Shape} (dims : Fin s.rank → Fin t.rank) (hb : s.BroadcastsInDim t dims)
    (x : s.Idx → EReal) (hx : ∀ k, IsReal (x k)) (j : t.Idx) : IsReal (broadcastInDim t dims hb x j) := by
  unfold broadcastInDim
  exact hx _

/-- A gather reads its operand at some (clamped) index, so a gather from a real array is real everywhere. -/
theorem isReal_gather {s si t : Shape} {w : Nat} (d : GatherDims s si t) (x : s.Idx → EReal) (idx : IVec si w)
    (hx : ∀ k, IsReal (x k)) (j : t.Idx) : IsReal (Host.gather d x idx j) := by
  unfold Host.gather
  exact hx _

/-- A scatter-add of real updates into a real array is real everywhere: each entry is the operand's entry plus a finite
    sum of updates, whichever updates land there. -/
theorem isReal_scatterAdd {s si u : Shape} {w : Nat} {φ : FTy} (d : ScatterDims s si u) (x : FVec Ideal s φ)
    (idx : IVec si w) (upd : FVec Ideal u φ) (hx : ∀ k, IsReal (x k)) (hupd : ∀ j, IsReal (upd j)) (i : s.Idx) :
    IsReal (Host.scatterAdd d x idx upd i) := by
  unfold Host.scatterAdd
  rw [Ideal.hostScatterAdd_def]
  unfold Ideal.hostScatterAdd
  exact (hx i).add (isReal_sum _ _ (fun j _ => hupd j))

/-- The zero constant, broadcast, is real everywhere. -/
theorem isReal_zeros {t : Shape} (dims : Fin S_.rank → Fin t.rank) (hb : S_.BroadcastsInDim t dims) (j : t.Idx) :
    IsReal (broadcastInDim t dims hb (constant (F := Ideal) S_ .f32 0x00000000#32) j) := by
  refine isReal_broadcastInDim dims hb _ (fun k => ?_) j
  rw [ValueIdx.constant_apply, Ideal.ofBits_zero_f32]
  exact isReal_zero

/-- The host's reciprocal square root at the extended reals, entry by entry. -/
theorem rsqrt_apply {s : Shape} (x : FVec Ideal s .f32) (i : s.Idx) : Host.rsqrt x i = Ideal.rsqrt (x i) := rfl

/-! ## The graph stage, definition by definition -/

/-- deg^(-1/2) is real at every node, the degree being a real number at least one. -/
theorem invSqrtDegree_isReal (e : IVec S2x3200000 32) (i : S100000.Idx) : IsReal (invSqrtDegree (F := Ideal) e i) := by
  obtain ⟨r, hr, hd⟩ := degree_ge_one e i
  rw [show invSqrtDegree (F := Ideal) e = Host.rsqrt (degree (F := Ideal) e) from rfl, rsqrt_apply, hd]
  exact isReal_rsqrt_of_pos (lt_of_lt_of_le one_pos hr)

/-- An edge's normalisation is the product of two gathered values of deg^(-1/2). -/
theorem edgeNorm_isReal (e : IVec S2x3200000 32) (j : S3300000.Idx) : IsReal (edgeNorm (F := Ideal) e j) := by
  unfold edgeNorm
  rw [ValueIdx.mulf_apply]
  exact (isReal_gather _ _ _ (invSqrtDegree_isReal e) j).mul (isReal_gather _ _ _ (invSqrtDegree_isReal e) j)

/-- An edge's message is a gathered entry of `h` times the edge's normalisation, broadcast along the row. -/
theorem messages_isReal (h : FVec Ideal S100000x32 .f32) (e : IVec S2x3200000 32) (hh : ∀ i, IsReal (h i))
    (j : S3300000x32.Idx) : IsReal (messages (F := Ideal) h e j) := by
  unfold messages
  rw [ValueIdx.mulf_apply]
  refine (isReal_gather _ _ _ hh j).mul ?_
  exact isReal_broadcastInDim _ _ _ (isReal_broadcastInDim _ _ _ (edgeNorm_isReal e)) j

end Realness

/-- If the dense layer's output is real everywhere, so is every aggregated entry: a finite sum of products of a
    gathered entry of `h` with two gathered values of deg^(-1/2), each a real because every degree is at least one. -/
theorem aggregate_isReal (h : FVec Ideal S100000x32 .f32) (e : IVec S2x3200000 32) (hh : ∀ i, IsReal (h i))
    (i : S100000x32.Idx) : IsReal (aggregate (F := Ideal) h e i) := by
  unfold aggregate
  exact Realness.isReal_scatterAdd _ _ _ _ (Realness.isReal_zeros _ _) (Realness.messages_isReal h e hh) i

end Cert.Gcn

end
-- ==== Proof.Result.lean ====
/-
  The result both programs compute, as one function of the six arguments, in its two arrangements; and that the two
  arrangements are the same array when every float argument is real.

  The class scores of node n are `logit` of the aggregated rows of X · W1, the biases and W2. The kernel ends with the
  fused arrangement of log-softmax of each row of scores, the reference with the shifted one. With real arguments
  X · W1 is real, the graph stage keeps it real, the scores are real, and the arrangements agree on a row of reals.
-/
import proofs.«150231_j42374147342661_1_alg».proof.Proof.Graph
import proofs.«150231_j42374147342661_1_alg».proof.Proof.Spec
import proofs.«150231_j42374147342661_1_alg».proof.Proof.Extended
import proofs.«150231_j42374147342661_1_alg».proof.Proof.GraphReal

noncomputable section

namespace Cert.Gcn

open Idealize.ShloMosaic Idealize.ShloMosaic.TcCoe Idealize.ShloMosaic.ValueIdx Idealize.SL.Sem Cert.KernelIdeal Cert.KernelIdeal.Facts₀

variable (x0 : FVec Ideal S100000x256 .f32) (x1 : IVec S2x3200000 32) (x2 : FVec Ideal S256x32 .f32)
  (x3 : FVec Ideal S32 .f32) (x4 : FVec Ideal S32x10 .f32) (x5 : FVec Ideal S10 .f32)

/-- X · W1 as an array. -/
def denseOf : FVec Ideal S100000x32 .f32 :=
  arr2 (hidden (fun n k => x0 (ix2 n k)) (fun k j => x2 (ix2 k j)))

/-- The class scores: node n, class q. -/
def scores (n : Fin 100000) (q : Fin 10) : EReal :=
  logit (fun n k => aggregate (F := Ideal) (denseOf x0 x2) x1 (ix2 n k)) (fun k => x3 (ix1 k)) (fun k q => x4 (ix2 k q))
    (fun q => x5 (ix1 q)) n q

/-- The result as the kernel arranges it. -/
def fusedResult : FVec Ideal S100000x10 .f32 := arr2 fun n q => logSoftmaxFused (scores x0 x1 x2 x3 x4 x5 n) q

/-- The result as the reference arranges it. -/
def shiftedResult : FVec Ideal S100000x10 .f32 := arr2 fun n q => logSoftmaxShifted (scores x0 x1 x2 x3 x4 x5 n) q

/-- With real arguments every class score is a real number. -/
theorem scores_isReal (h0 : ∀ i, IsReal (x0 i)) (h2 : ∀ i, IsReal (x2 i)) (h3 : ∀ i, IsReal (x3 i)) (h4 : ∀ i, IsReal (x4 i))
    (h5 : ∀ i, IsReal (x5 i)) (n : Fin 100000) (q : Fin 10) : IsReal (scores x0 x1 x2 x3 x4 x5 n q) := by
  unfold scores
  refine isReal_logit _ _ _ _ (fun n k => ?_) (fun k => h3 _) (fun k q => h4 _) (fun q => h5 _) n q
  refine aggregate_isReal _ x1 (fun i => ?_) _
  rw [eq_ix2 i]
  exact isReal_hidden _ _ (fun n k => h0 _) (fun k j => h2 _) _ _

/-- With real arguments the two arrangements are one array. -/
theorem shifted_eq_fused (h0 : ∀ i, IsReal (x0 i)) (h2 : ∀ i, IsReal (x2 i)) (h3 : ∀ i, IsReal (x3 i)) (h4 : ∀ i, IsReal (x4 i))
    (h5 : ∀ i, IsReal (x5 i)) : shiftedResult x0 x1 x2 x3 x4 x5 = fusedResult x0 x1 x2 x3 x4 x5 := by
  unfold shiftedResult fusedResult
  refine ext_ix2 fun n q => ?_
  rw [arr2_ix2, arr2_ix2]
  exact logSoftmax_arrangements _ (fun q => scores_isReal x0 x1 x2 x3 x4 x5 h0 h2 h3 h4 h5 n q) q

end Cert.Gcn

end
-- ==== Proof.KernelValue.lean ====
/-
  The kernel's result array as one function of the arguments.

  The named run leaves the result at what region 1's write-backs leave (`Head`) of the arrays region 1 is entered with:
  the aggregated rows, which the host stretch between the two regions computes from region 0's result — X · W1, by
  `Dense` — and the edge list (the one term `aggregate`); the two bias vectors viewed as rows; and W2 untouched.
-/
import proofs.«150231_j42374147342661_1_alg».proof.Proof.KernelRun
import proofs.«150231_j42374147342661_1_alg».proof.Proof.Graph
import proofs.«150231_j42374147342661_1_alg».proof.Proof.Dense
import proofs.«150231_j42374147342661_1_alg».proof.Proof.Head
import proofs.«150231_j42374147342661_1_alg».proof.Proof.Result
import Idealize.ShloMosaic.Lib.StableHlo.Run
import Idealize.ShloMosaic.Lib.ValueLayout

noncomputable section

namespace Cert.Gcn

open Idealize.ShloMosaic Idealize.ShloMosaic.TcCoe Idealize.ShloMosaic.ValueIdx Idealize.SL.Sem Cert.KernelIdeal Cert.KernelIdeal.Facts₀ Cert.KernelIdeal.Gen Cert.KernelIdeal.GenNamed Idealize.ShloMosaic.StableHlo

section AnyFloats

variable {F : FTy → Type} [FloatOps F]
variable (m : (ℓ : Loc nD τ sig) → Buf (Elt F) ℓ) (ρ : Dev nD → PrngReg)

set_option maxHeartbeats 4000000 in
/-- Region 1 is entered with the aggregated rows: the host stretch is the graph stage of region 0's result and the
    edge list as they stand at region 0's exit. -/
theorem entry_aggregated (c : Dev nD) :
    V2 m ρ c main_v40 = aggregate (V1 m ρ c main_v0) (V1 m ρ c main_arg1) := by
  show StableHlo.after hostOps1 (W1 m ρ c) (Proc.devRef .tc main_v40) = _
  after_results_simp
  rfl

set_option maxHeartbeats 4000000 in
/-- … with the first bias as a row, -/
theorem entry_bias1 (c : Dev nD) :
    V2 m ρ c main_v41 = shapeCast S1x32 (V1 m ρ c main_arg3) Facts₀.shapeCasts_S32_S1x32 := by
  show StableHlo.after hostOps1 (W1 m ρ c) (Proc.devRef .tc main_v41) = _
  after_results_simp
  rfl

set_option maxHeartbeats 4000000 in
/-- … the second bias as a row, -/
theorem entry_bias2 (c : Dev nD) :
    V2 m ρ c main_v42 = shapeCast S1x10 (V1 m ρ c main_arg5) Facts₀.shapeCasts_S10_S1x10 := by
  show StableHlo.after hostOps1 (W1 m ρ c) (Proc.devRef .tc main_v42) = _
  after_results_simp
  rfl

set_option maxHeartbeats 4000000 in
/-- … and W2 as region 0 left it. -/
theorem entry_weights2 (c : Dev nD) : V2 m ρ c main_arg4 = V1 m ρ c main_arg4 := by
  show StableHlo.after hostOps1 (W1 m ρ c) (Proc.devRef .tc main_arg4) = _
  after_results_simp

/-- Region 0 leaves its result array at what its write-backs leave, -/
theorem exit_dense (c : Dev nD) : V1 m ρ c main_v0 = (dat0 (V0 m ρ) c).arrAt 2 cfg0.N := W1_arr m ρ c 2
/-- and touches no argument it does not stage. -/
theorem exit_edges (c : Dev nD) : V1 m ρ c main_arg1 = m ((c : Thread nD τ).loc main_arg1) := W1_of_ne m ρ c main_arg1 (by decide)
theorem exit_bias1 (c : Dev nD) : V1 m ρ c main_arg3 = m ((c : Thread nD τ).loc main_arg3) := W1_of_ne m ρ c main_arg3 (by decide)
theorem exit_weights2 (c : Dev nD) : V1 m ρ c main_arg4 = m ((c : Thread nD τ).loc main_arg4) := W1_of_ne m ρ c main_arg4 (by decide)
theorem exit_bias2 (c : Dev nD) : V1 m ρ c main_arg5 = m ((c : Thread nD τ).loc main_arg5) := W1_of_ne m ρ c main_arg5 (by decide)

end AnyFloats

section Extended

variable (m : (ℓ : Loc nD τ sig) → Buf (Elt Ideal) ℓ) (ρ : Dev nD → PrngReg)

/-- Region 0's result is X · W1 of the launch contents. -/
theorem dense_of_launch (c : Dev nD) :
    V1 m ρ c main_v0 = denseOf (m ((c : Thread nD τ).loc main_arg0)) (m ((c : Thread nD τ).loc main_arg2)) := by
  rw [exit_dense]
  exact ext_ix2 fun n j => hidden_array (V0 m ρ) c n j

/-- THE KERNEL'S RESULT: the last boundary's contents of the result buffer are the fused arrangement of the six
    arguments. -/
theorem kernel_result (c : Dev nD) :
    W3 m ρ c (Proc.devRef .tc main_v43)
      = fusedResult (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W3_arr m ρ c 4).trans (ext_ix2 fun n q => ?_)
  rw [classes_array (V2 m ρ) c n q]
  unfold fusedResult scores
  rw [arr2_ix2, entry_aggregated, dense_of_launch, exit_edges, entry_bias1, exit_bias1, entry_weights2, exit_weights2,
    entry_bias2, exit_bias2]
  refine congrArg (fun x => logSoftmaxFused x q) (funext fun j => ?_)
  unfold logit
  refine congrArg₂ (· + ·) (Finset.sum_congr rfl fun k _ => ?_) ?_
  · beta_reduce
    rw [shapeCast_a_1a_apply]
  · beta_reduce
    rw [shapeCast_a_1a_apply]

/-- The kernel's run with the result at the fused arrangement of the arguments, the arguments unchanged. -/
theorem kernel_run : θ_run defs (onTc (τ := τ) (main (F := Ideal))) ⟨m, fun _ => 0, ρ⟩ (fun r => ∀ c : Dev nD,
      r.2.mem ((c.tc : Thread nD τ).loc main_v43)
        = fusedResult (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (kernel_result m ρ c), (h c).2⟩) (run_named m ρ)

end Extended

end Cert.Gcn

end
-- ==== Proof.RefValue.lean ====
/-
  The reference's run read at its result: every execution of the reference ends with the result array at the last
  stage of its operation list — the composition of the stages, one per operation, of the six arguments — and the
  arguments unchanged.

  The fold of the 75 operations is read in three stretches: the graph stage (the first 50 operations, ending at the
  aggregated rows), the class scores (the next 10) and the log-softmax (the last 15), each from arbitrary contents
  that hold the stretch before it. The operations of the two inlined functions move their operands between a buffer's
  own contents type and the value's; such a move and its inverse cancel.
-/
import proofs.«150231_j42374147342661_1_alg».proof.Proof.RefRead
import Idealize.ShloMosaic.Lib.StableHlo.Run

noncomputable section

namespace Cert.Gcn.Reference

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The contents after a list of operations followed by another: the second list from what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents moved to a typed reference's buffer type and back are the contents. -/
theorem ofBuf_toBuf {sig : RefSig} {Val : EltTy → Type} {T : BufTy} (x : TRef sig T) (v : T.Contents Val) :
    x.ofBuf (x.toBuf v) = v := by
  obtain ⟨r, h, a, b⟩ := x
  subst h
  rfl

variable {F : FTy → Type} [FloatOps F]

/-! The four places where such a move stands alone: a called function reading @main's buffer, or writing one. -/

theorem ofBuf_biased (p1 p2 p3) (v : (⟨S100000x32, .f32⟩ : BufTy).Contents (Elt F)) :
    (TRef.of (T := ⟨S100000x32, .f32⟩) main_v43 p1 p2 p3).ofBuf (Val := Elt F) v = v := rfl
theorem toBuf_rectified (p1 p2 p3) (v : (⟨S100000x32, .f32⟩ : BufTy).Contents (Elt F)) :
    (TRef.of (T := ⟨S100000x32, .f32⟩) main_v44 p1 p2 p3).toBuf (Val := Elt F) v = v := rfl
theorem ofBuf_scores (p1 p2 p3) (v : (⟨S100000x10, .f32⟩ : BufTy).Contents (Elt F)) :
    (TRef.of (T := ⟨S100000x10, .f32⟩) main_v48 p1 p2 p3).ofBuf (Val := Elt F) v = v := rfl
theorem toBuf_result (p1 p2 p3) (v : (⟨S100000x10, .f32⟩ : BufTy).Contents (Elt F)) :
    (TRef.of (T := ⟨S100000x10, .f32⟩) main_v49 p1 p2 p3).toBuf (Val := Elt F) v = v := rfl

/-! ## The three stretches -/

set_option maxRecDepth 8192 in
set_option maxHeartbeats 30000000 in
/-- The graph stage: after the first 50 operations the aggregated rows are their stage of the arguments. -/
theorem graph_stretch (W : Valuation τ sig (Elt F)) :
    after (List.take 50 (ops (F := F))) W (Proc.tc.devRef main_v40)
      = val_main_v40 (F := F) (W (Proc.tc.devRef main_arg0)) (W (Proc.tc.devRef main_arg1)) (W (Proc.tc.devRef main_arg2)) := by
  simp only [ops, List.take_succ_cons, List.take_zero]
  after_results_simp
  rfl

set_option maxHeartbeats 4000000 in
/-- The first 50 operations write neither bias nor W2. -/
theorem graph_keeps (W : Valuation τ sig (Elt F)) :
    after (List.take 50 (ops (F := F))) W (Proc.tc.devRef main_arg3) = W (Proc.tc.devRef main_arg3)
    ∧ after (List.take 50 (ops (F := F))) W (Proc.tc.devRef main_arg4) = W (Proc.tc.devRef main_arg4)
    ∧ after (List.take 50 (ops (F := F))) W (Proc.tc.devRef main_arg5) = W (Proc.tc.devRef main_arg5) := by
  simp only [ops, List.take_succ_cons, List.take_zero]
  refine ⟨?_, ?_, ?_⟩ <;> after_results_simp

set_option maxRecDepth 8192 in
set_option maxHeartbeats 30000000 in
/-- The class scores: the next 10 operations, from any contents that hold the aggregated rows. -/
theorem scores_stretch (W : Valuation τ sig (Elt F)) (x0 : (⟨S100000x256, .f32⟩ : BufTy).Contents (Elt F))
    (x1 : (⟨S2x3200000, .i32⟩ : BufTy).Contents (Elt F)) (x2 : (⟨S256x32, .f32⟩ : BufTy).Contents (Elt F))
    (h40 : W (Proc.tc.devRef main_v40) = val_main_v40 (F := F) x0 x1 x2) :
    after (List.take 10 (List.drop 50 (ops (F := F)))) W (Proc.tc.devRef main_v48)
      = val_main_v48 (F := F) x0 x1 x2 (W (Proc.tc.devRef main_arg3)) (W (Proc.tc.devRef main_arg4)) (W (Proc.tc.devRef main_arg5)) := by
  simp only [ops, List.drop_succ_cons, List.drop_zero, List.take_succ_cons, List.take_zero]
  after_results_simp
  rw [h40]
  simp only [val_main_v48, val_main_v47, val_main_v46, val_main_v45, val_main_v44, val_main_call0_v0, val_main_call0_cst, val_main_v43, val_main_v42, val_main_v41]
  generalize val_main_v40 (F := F) x0 x1 x2 = a
  simp only [ofBuf_toBuf, ofBuf_biased, toBuf_rectified]

set_option maxRecDepth 8192 in
set_option maxHeartbeats 30000000 in
/-- The log-softmax: the last 15 operations, from any contents that hold the class scores. -/
theorem logsoftmax_stretch (W : Valuation τ sig (Elt F)) (x0 : (⟨S100000x256, .f32⟩ : BufTy).Contents (Elt F)) (x1 : (⟨S2x3200000, .i32⟩ : BufTy).Contents (Elt F)) (x2 : (⟨S256x32, .f32⟩ : BufTy).Contents (Elt F)) (x3 : (⟨S32, .f32⟩ : BufTy).Contents (Elt F)) (x4 : (⟨S32x10, .f32⟩ : BufTy).Contents (Elt F)) (x5 : (⟨S10, .f32⟩ : BufTy).Contents (Elt F))
    (h48 : W (Proc.tc.devRef main_v48) = val_main_v48 (F := F) x0 x1 x2 x3 x4 x5) :
    after (List.drop 10 (List.drop 50 (ops (F := F)))) W (Proc.tc.devRef main_v49)
      = val_main_v49 (F := F) x0 x1 x2 x3 x4 x5 := by
  simp only [ops, List.drop_succ_cons, List.drop_zero]
  after_results_simp
  rw [h48]
  simp only [val_main_v49, val_main_call1_v10, val_main_call1_v9, val_main_call1_v8, val_main_call1_v7, val_main_call1_cst_1, val_main_call1_v6, val_main_call1_v5, val_main_call1_v4, val_main_call1_v3, val_main_call1_v2, val_main_call1_v1, val_main_call1_cst_0, val_main_call1_v0, val_main_call1_cst]
  generalize val_main_v48 (F := F) x0 x1 x2 x3 x4 x5 = x
  simp only [ofBuf_toBuf, toBuf_result, ofBuf_scores]

/-! ## The whole fold, and the run -/

/-- The fold of the 75 operations, read at the result buffer, is the last stage of the contents it starts from. -/
theorem result_term (W : Valuation τ sig (Elt F)) :
    after (ops (F := F)) W (Proc.tc.devRef main_v49)
      = val_main_v49 (F := F) (W (Proc.tc.devRef main_arg0)) (W (Proc.tc.devRef main_arg1)) (W (Proc.tc.devRef main_arg2)) (W (Proc.tc.devRef main_arg3)) (W (Proc.tc.devRef main_arg4)) (W (Proc.tc.devRef main_arg5)) := by
  have hcut : ops (F := F) = List.take 50 ops ++ (List.take 10 (List.drop 50 ops) ++ List.drop 10 (List.drop 50 ops)) := by
    rw [List.take_append_drop, List.take_append_drop]
  obtain ⟨k3, k4, k5⟩ := graph_keeps (F := F) W
  calc after (ops (F := F)) W (Proc.tc.devRef main_v49)
      = after (List.drop 10 (List.drop 50 ops)) (after (List.take 10 (List.drop 50 ops)) (after (List.take 50 ops) W))
          (Proc.tc.devRef main_v49) := by
        conv_lhs => rw [hcut]
        rw [after_append, after_append]
    _ = _ := logsoftmax_stretch _ _ _ _ _ _ _
        ((scores_stretch _ _ _ _ (graph_stretch W)).trans (by rw [k3, k4, k5]))

set_option maxRecDepth 8192 in
set_option maxHeartbeats 30000000 in
/-- On every device, from any memory with zero counters: every weakly fair execution of the reference's @main
    terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = val_main_v49 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v49).trans (result_term (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.Gcn.Reference

end
-- ==== Proof.RefTail.lean ====
/-
  The reference program's stages read at an entry: its aggregated rows are the graph stage of its dense layer, the dense
  layer's entry is the sum over the 256 features, and its result at (n, q) is the shifted log-softmax of the class scores.
-/
import proofs.«150231_j42374147342661_1_alg».proof.Proof.RefRead
import proofs.«150231_j42374147342661_1_alg».proof.Proof.Graph
import proofs.«150231_j42374147342661_1_alg».proof.Proof.Spec
import Idealize.ShloMosaic.PureOps.Ideal.Laws
import Idealize.ShloMosaic.Lib.Pipeline.Value

noncomputable section

namespace Cert.Gcn

open Idealize.ShloMosaic Idealize.ShloMosaic.TcCoe Idealize.ShloMosaic.ValueIdx Idealize.SL.Sem Cert.ReferenceIdeal Cert.ReferenceIdeal.ReadP

namespace RefStages

/-- The node index `n` with class `k` put back on the reduced (second) axis is the entry (n, k). -/
theorem lift_row (h : S100000x10.Reduces [1] S100000) (n : Fin 100000) (k : Fin (S100000x10.size 1)) :
    h.lift (ix1 n) k = ix2 n (⟨k.val, k.isLt⟩ : Fin 10) := by
  funext c; apply Fin.ext
  match c with
  | ⟨0, _⟩ => rfl
  | ⟨1, _⟩ => rfl

/-- The bit pattern of −∞ is the bottom of the extended reals. -/
theorem negInf_bits : Ideal.ofBits .f32 0xFF800000#32 = (⊥ : EReal) := by simp [Ideal.ofBits, Ideal.ieee]

/-- For ANY array of class scores: the reduce with a maximum body from −∞ over the class axis is, at node `n`, the fold
    of `max` from −∞ over that node's ten scores. -/
theorem reduceMax_row (y : FVec Ideal S100000x10 .f32) (h' : S100000x10.ReducesTo [1] S100000) (hu : 0 < S_.numel)
    (n : Fin 100000) :
    Host.reduce FloatOps.maximumf y (constant S_ .f32 0xFF800000#32) h' hu (ix1 n) = rowMax (fun q => y (ix2 n q)) := by
  have h : S100000x10.Reduces [1] S100000 := by decide
  have hf : (y ∘ h.lift (ix1 n)) = fun k : Fin 10 => y (ix2 n k) := funext fun k => congrArg y (lift_row h n k)
  rw [Host.reduce_eq_fold_single FloatOps.maximumf y _ h' h hu]
  unfold rowMax
  rw [← negInf_bits]
  exact congrArg (fun f => Finset.fold max (Ideal.ofBits .f32 0xFF800000#32) f (Finset.univ : Finset (Fin 10))) hf

/-- The hidden activation at (n, k): the positive part of the aggregated entry plus the bias. -/
theorem relu_at (x0 : (⟨S100000x256, .f32⟩ : BufTy).Contents (Elt Ideal)) (x1 : (⟨S2x3200000, .i32⟩ : BufTy).Contents (Elt Ideal))
    (x2 : (⟨S256x32, .f32⟩ : BufTy).Contents (Elt Ideal)) (x3 : (⟨S32, .f32⟩ : BufTy).Contents (Elt Ideal))
    (n : Fin 100000) (k : Fin 32) :
    val_main_v44 (F := Ideal) x0 x1 x2 x3 (ix2 n k) = max (val_main_v40 (F := Ideal) x0 x1 x2 (ix2 n k) + x3 (ix1 k)) 0 := by
  have e1 : idx_main_v41 (idx_main_v42 (ix2 n k)) = ix1 k :=
    funext fun a => Fin.ext (by match a with | ⟨0, _⟩ => rfl)
  rw [val_main_v44_apply, val_main_v43_apply, val_main_v42_apply, val_main_v41_apply, e1,
    val_main_call0_v0_apply, val_main_call0_cst_apply, Ideal.maximumf_def, Ideal.addf_def, Ideal.ofBits_def,
    Ideal.ofBits_zero_f32]

/-- The class scores at (n, q): the hidden activations times W2, summed over the 32 hidden units, plus b2. -/
theorem logits_at (x0 : (⟨S100000x256, .f32⟩ : BufTy).Contents (Elt Ideal)) (x1 : (⟨S2x3200000, .i32⟩ : BufTy).Contents (Elt Ideal))
    (x2 : (⟨S256x32, .f32⟩ : BufTy).Contents (Elt Ideal)) (x3 : (⟨S32, .f32⟩ : BufTy).Contents (Elt Ideal))
    (x4 : (⟨S32x10, .f32⟩ : BufTy).Contents (Elt Ideal)) (x5 : (⟨S10, .f32⟩ : BufTy).Contents (Elt Ideal))
    (n : Fin 100000) (q : Fin 10) :
    val_main_v48 (F := Ideal) x0 x1 x2 x3 x4 x5 (ix2 n q)
      = logit (fun n k => val_main_v40 (F := Ideal) x0 x1 x2 (ix2 n k)) (fun k => x3 (ix1 k))
          (fun k q => x4 (ix2 k q)) (fun q => x5 (ix1 q)) n q := by
  have eb : idx_main_v46 (idx_main_v47 (ix2 n q)) = ix1 q :=
    funext fun a => Fin.ext (by match a with | ⟨0, _⟩ => rfl)
  have hsum : (∑ k : Fin 32, val_main_v44 (F := Ideal) x0 x1 x2 x3 (lidx_main_v45 (ix2 n q) k) * x4 (ridx_main_v45 (ix2 n q) k))
      = ∑ k : Fin 32, max (val_main_v40 (F := Ideal) x0 x1 x2 (ix2 n k) + x3 (ix1 k)) 0 * x4 (ix2 k q) :=
    Finset.sum_congr rfl fun k _ => by
      have el : lidx_main_v45 (ix2 n q) k = ix2 n k :=
        funext fun a => Fin.ext (by match a with | ⟨0, _⟩ => rfl | ⟨1, _⟩ => rfl)
      have er : ridx_main_v45 (ix2 n q) k = ix2 k q :=
        funext fun a => Fin.ext (by match a with | ⟨0, _⟩ => rfl | ⟨1, _⟩ => rfl)
      rw [el, er, relu_at]
  rw [val_main_v48_apply, val_main_v45_apply, val_main_v47_apply, val_main_v46_apply, eb, Ideal.addf_def, hsum]
  generalize val_main_v40 (F := Ideal) x0 x1 x2 = A
  rfl

/-- The row maximum the reference subtracts is the fold of `max` from −∞ over the node's ten class scores: the
    second maximum, against −∞, changes nothing. -/
theorem rowMax_at (x0 : (⟨S100000x256, .f32⟩ : BufTy).Contents (Elt Ideal)) (x1 : (⟨S2x3200000, .i32⟩ : BufTy).Contents (Elt Ideal))
    (x2 : (⟨S256x32, .f32⟩ : BufTy).Contents (Elt Ideal)) (x3 : (⟨S32, .f32⟩ : BufTy).Contents (Elt Ideal))
    (x4 : (⟨S32x10, .f32⟩ : BufTy).Contents (Elt Ideal)) (x5 : (⟨S10, .f32⟩ : BufTy).Contents (Elt Ideal))
    (n : Fin 100000) :
    val_main_call1_v2 (F := Ideal) x0 x1 x2 x3 x4 x5 (ix1 n)
      = rowMax (fun q => val_main_v48 (F := Ideal) x0 x1 x2 x3 x4 x5 (ix2 n q)) := by
  rw [val_main_call1_v2_apply, val_main_call1_v1_apply, val_main_call1_cst_0_apply]
  unfold val_main_call1_v0 val_main_call1_cst
  generalize val_main_v48 (F := Ideal) x0 x1 x2 x3 x4 x5 = y
  rw [reduceMax_row y _ _ n, Ideal.maximumf_def, Ideal.ofBits_def, negInf_bits, max_bot_left]

/-- The shifted score at (n, q): the score minus its row's maximum. -/
theorem shifted_at (x0 : (⟨S100000x256, .f32⟩ : BufTy).Contents (Elt Ideal)) (x1 : (⟨S2x3200000, .i32⟩ : BufTy).Contents (Elt Ideal))
    (x2 : (⟨S256x32, .f32⟩ : BufTy).Contents (Elt Ideal)) (x3 : (⟨S32, .f32⟩ : BufTy).Contents (Elt Ideal))
    (x4 : (⟨S32x10, .f32⟩ : BufTy).Contents (Elt Ideal)) (x5 : (⟨S10, .f32⟩ : BufTy).Contents (Elt Ideal))
    (n : Fin 100000) (q : Fin 10) :
    val_main_call1_v5 (F := Ideal) x0 x1 x2 x3 x4 x5 (ix2 n q)
      = val_main_v48 (F := Ideal) x0 x1 x2 x3 x4 x5 (ix2 n q) - rowMax (fun q => val_main_v48 (F := Ideal) x0 x1 x2 x3 x4 x5 (ix2 n q)) := by
  have e : idx_main_call1_v3 (idx_main_call1_v4 (ix2 n q)) = ix1 n :=
    funext fun a => Fin.ext (by match a with | ⟨0, _⟩ => rfl)
  rw [val_main_call1_v5_apply, val_main_call1_v4_apply, val_main_call1_v3_apply, e, rowMax_at, Ideal.subf_def]

/-- The term subtracted last at (n, q): the logarithm of the sum, from 0, of the exponentials of the row's shifted
    scores. -/
theorem logSum_at (x0 : (⟨S100000x256, .f32⟩ : BufTy).Contents (Elt Ideal)) (x1 : (⟨S2x3200000, .i32⟩ : BufTy).Contents (Elt Ideal))
    (x2 : (⟨S256x32, .f32⟩ : BufTy).Contents (Elt Ideal)) (x3 : (⟨S32, .f32⟩ : BufTy).Contents (Elt Ideal))
    (x4 : (⟨S32x10, .f32⟩ : BufTy).Contents (Elt Ideal)) (x5 : (⟨S10, .f32⟩ : BufTy).Contents (Elt Ideal))
    (n : Fin 100000) (q : Fin 10) :
    val_main_call1_v10 (F := Ideal) x0 x1 x2 x3 x4 x5 (ix2 n q)
      = Ideal.log (shiftedExpSum (fun q => val_main_v48 (F := Ideal) x0 x1 x2 x3 x4 x5 (ix2 n q))) := by
  have e : idx_main_call1_v8 (idx_main_call1_v10 (ix2 n q)) = ix1 n :=
    funext fun a => Fin.ext (by match a with | ⟨0, _⟩ => rfl)
  have hsum : (∑ k : Fin 10, val_main_call1_v6 (F := Ideal) x0 x1 x2 x3 x4 x5 (idx_main_call1_v7 (ix1 n) k))
      = ∑ j : Fin 10, Ideal.exp (val_main_v48 (F := Ideal) x0 x1 x2 x3 x4 x5 (ix2 n j) - rowMax (fun q => val_main_v48 (F := Ideal) x0 x1 x2 x3 x4 x5 (ix2 n q))) :=
    Finset.sum_congr rfl fun k _ => by
      have ek : idx_main_call1_v7 (ix1 n) k = ix2 n k :=
        funext fun a => Fin.ext (by match a with | ⟨0, _⟩ => rfl | ⟨1, _⟩ => rfl)
      rw [ek, val_main_call1_v6_apply, Ideal.hostUnary_exp_def, shifted_at]
  rw [val_main_call1_v10_apply, val_main_call1_v9_apply, val_main_call1_v8_apply, e, val_main_call1_v7_apply,
    val_main_call1_cst_1_apply, Ideal.hostUnary_log_def, Ideal.ofBits_def, Ideal.ofBits_zero_f32, zero_add, hsum]
  generalize val_main_v48 (F := Ideal) x0 x1 x2 x3 x4 x5 = y
  rfl

/-- The result at (n, q) is the shifted log-softmax of the node's class scores. -/
theorem classes_of_scores (x0 : (⟨S100000x256, .f32⟩ : BufTy).Contents (Elt Ideal)) (x1 : (⟨S2x3200000, .i32⟩ : BufTy).Contents (Elt Ideal))
    (x2 : (⟨S256x32, .f32⟩ : BufTy).Contents (Elt Ideal)) (x3 : (⟨S32, .f32⟩ : BufTy).Contents (Elt Ideal))
    (x4 : (⟨S32x10, .f32⟩ : BufTy).Contents (Elt Ideal)) (x5 : (⟨S10, .f32⟩ : BufTy).Contents (Elt Ideal))
    (n : Fin 100000) (q : Fin 10) :
    val_main_v49 (F := Ideal) x0 x1 x2 x3 x4 x5 (ix2 n q) = logSoftmaxShifted (fun q => val_main_v48 (F := Ideal) x0 x1 x2 x3 x4 x5 (ix2 n q)) q := by
  rw [val_main_v49_apply, shifted_at, logSum_at, Ideal.subf_def]
  generalize val_main_v48 (F := Ideal) x0 x1 x2 x3 x4 x5 = y
  rfl

end RefStages

/-- The reference's aggregated rows are the graph stage of its dense layer and the edge list: the same operations,
    in the same order, as the term `aggregate`. -/
theorem ref_aggregate {F : FTy → Type} [FloatOps F] (x0 : (⟨S100000x256, .f32⟩ : BufTy).Contents (Elt F))
    (x1 : (⟨S2x3200000, .i32⟩ : BufTy).Contents (Elt F)) (x2 : (⟨S256x32, .f32⟩ : BufTy).Contents (Elt F)) :
    val_main_v40 (F := F) x0 x1 x2 = aggregate (val_main_v7 (F := F) x0 x2) x1 := rfl

/-- The reference's dense layer at an entry: the sum over the 256 features. -/
theorem ref_hidden (x0 : (⟨S100000x256, .f32⟩ : BufTy).Contents (Elt Ideal)) (x2 : (⟨S256x32, .f32⟩ : BufTy).Contents (Elt Ideal))
    (n : Fin 100000) (j : Fin 32) :
    val_main_v7 (F := Ideal) x0 x2 (ix2 n j) = hidden (fun n k => x0 (ix2 n k)) (fun k j => x2 (ix2 k j)) n j := by
  rw [val_main_v7_apply]
  unfold hidden
  refine Finset.sum_congr rfl fun k _ => ?_
  have el : lidx_main_v7 (ix2 n j) k = ix2 n k :=
    funext fun a => Fin.ext (by match a with | ⟨0, _⟩ => rfl | ⟨1, _⟩ => rfl)
  have er : ridx_main_v7 (ix2 n j) k = ix2 k j :=
    funext fun a => Fin.ext (by match a with | ⟨0, _⟩ => rfl | ⟨1, _⟩ => rfl)
  rw [el, er]

/-- The reference's result at node n and class q: the shifted log-softmax of the node's class scores, the scores
    computed from the aggregated rows (the stage `val_main_v40`), the biases and W2. -/
theorem ref_classes (x0 : (⟨S100000x256, .f32⟩ : BufTy).Contents (Elt Ideal)) (x1 : (⟨S2x3200000, .i32⟩ : BufTy).Contents (Elt Ideal))
    (x2 : (⟨S256x32, .f32⟩ : BufTy).Contents (Elt Ideal)) (x3 : (⟨S32, .f32⟩ : BufTy).Contents (Elt Ideal))
    (x4 : (⟨S32x10, .f32⟩ : BufTy).Contents (Elt Ideal)) (x5 : (⟨S10, .f32⟩ : BufTy).Contents (Elt Ideal))
    (n : Fin 100000) (q : Fin 10) :
    val_main_v49 (F := Ideal) x0 x1 x2 x3 x4 x5 (ix2 n q)
      = logSoftmaxShifted (logit (fun n k => val_main_v40 (F := Ideal) x0 x1 x2 (ix2 n k)) (fun k => x3 (ix1 k))
          (fun k q => x4 (ix2 k q)) (fun q => x5 (ix1 q)) n) q := by
  have hl : (fun q => val_main_v48 (F := Ideal) x0 x1 x2 x3 x4 x5 (ix2 n q))
      = logit (fun n k => val_main_v40 (F := Ideal) x0 x1 x2 (ix2 n k)) (fun k => x3 (ix1 k))
          (fun k q => x4 (ix2 k q)) (fun q => x5 (ix1 q)) n :=
    funext fun q => RefStages.logits_at x0 x1 x2 x3 x4 x5 n q
  rw [RefStages.classes_of_scores]
  exact congrArg (fun x => logSoftmaxShifted x q) hl

end Cert.Gcn

end
-- ==== Proof.Bridge.lean ====
/-
  The reference's result is the shifted arrangement of the six arguments: its last stage, read entry by entry, is the
  shifted log-softmax of the class scores; its aggregated rows are the graph stage of its dense layer, which is X · W1.
-/
import proofs.«150231_j42374147342661_1_alg».proof.Proof.RefTail
import proofs.«150231_j42374147342661_1_alg».proof.Proof.Result

noncomputable section

namespace Cert.Gcn

open Idealize.ShloMosaic Idealize.ShloMosaic.TcCoe Idealize.ShloMosaic.ValueIdx Idealize.SL.Sem Cert.ReferenceIdeal Cert.ReferenceIdeal.ReadP

theorem reference_aggregated (x0 : (⟨S100000x256, .f32⟩ : BufTy).Contents (Elt Ideal)) (x1 : (⟨S2x3200000, .i32⟩ : BufTy).Contents (Elt Ideal))
    (x2 : (⟨S256x32, .f32⟩ : BufTy).Contents (Elt Ideal)) :
    val_main_v40 (F := Ideal) x0 x1 x2 = aggregate (F := Ideal) (denseOf x0 x2) x1 := by
  rw [ref_aggregate]
  exact congrArg (fun h => aggregate (F := Ideal) h x1) (ext_ix2 fun n j => ref_hidden x0 x2 n j)

theorem reference_result (x0 : (⟨S100000x256, .f32⟩ : BufTy).Contents (Elt Ideal)) (x1 : (⟨S2x3200000, .i32⟩ : BufTy).Contents (Elt Ideal))
    (x2 : (⟨S256x32, .f32⟩ : BufTy).Contents (Elt Ideal)) (x3 : (⟨S32, .f32⟩ : BufTy).Contents (Elt Ideal))
    (x4 : (⟨S32x10, .f32⟩ : BufTy).Contents (Elt Ideal)) (x5 : (⟨S10, .f32⟩ : BufTy).Contents (Elt Ideal)) :
    val_main_v49 (F := Ideal) x0 x1 x2 x3 x4 x5 = shiftedResult x0 x1 x2 x3 x4 x5 := by
  refine ext_ix2 fun n q => ?_
  rw [ref_classes, reference_aggregated]
  rfl

end Cert.Gcn

end
-- ==== Proof.Finite.lean ====
/-
  The precondition read: it is the conjunction, over the five float inputs, of "every entry's absolute value is
  strictly below +∞". On the extended reals an entry with |x| < ⊤ is neither infinity, hence a real number.
-/
import proofs.«150231_j42374147342661_1_alg».proof.Pre_finite_inputs
import proofs.«150231_j42374147342661_1_alg».proof.Proof.Gen.Pre_finite_inputs
import proofs.«150231_j42374147342661_1_alg».proof.Proof.Spec
import Idealize.ShloMosaic.Lib.ReduceAll
import Idealize.ShloMosaic.PureOps.Ideal.Laws

noncomputable section

namespace Cert.Gcn

open Idealize.ShloMosaic Idealize.ShloMosaic.TcCoe Idealize.ShloMosaic.ValueIdx Idealize.SL.Sem Cert.Pre_finite_inputs

/-- The rank-0 shape has exactly one index. -/
instance subsingleton_S_Idx : Subsingleton S_.Idx := ⟨fun a b => funext fun d => d.elim0⟩

/-- The f32 pattern 0x7F800000 (sign 0, exponent all ones, fraction 0) denotes +∞. -/
theorem ofBits_inf : Ideal.ofBits .f32 0x7F800000#32 = (⊤ : EReal) := by simp [Ideal.ofBits, Ideal.ieee]

/-- One entry: if the comparison |x| < +∞ holds then x is a real number. |x| is max x (−x); at x = ⊤ it is ⊤ and at
    x = ⊥ it is −⊥ = ⊤, so the strict inequality fails at both infinities, and what is left is the embedding of a real. -/
theorem isReal_of_abs_lt_inf (x : Ideal .f32)
    (h : FloatOps.cmpf .olt (FloatOps.hostAbsf x) (FloatOps.ofBits (F := Ideal) .f32 0x7F800000#32) = 1#1) : IsReal x := by
  rw [Ideal.hostAbsf_def, Ideal.absf_def, Ideal.cmpf_def, Ideal.ofBits_def, ofBits_inf] at h
  change BitVec.ofBool (decide (max (x : EReal) (-(x : EReal)) < ⊤)) = 1#1 at h
  have hlt : max (x : EReal) (-(x : EReal)) < ⊤ := by
    by_cases hc : max (x : EReal) (-(x : EReal)) < ⊤
    · exact hc
    · rw [decide_eq_false hc] at h
      exact absurd h (by decide)
  induction x using EReal.rec with
  | bot => simp at hlt
  | top => simp at hlt
  | coe r => exact ⟨r, rfl⟩

/-- One input array: if the conjunction over all its entries of |x i| < +∞ (a reduction by "and" over every axis,
    started from true) is true, then every entry is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) (i : s.Idx) : IsReal (x i) :=
  isReal_of_abs_lt_inf (x i) (Host.reduce_andi_all _ _ hr hu ix0 e i)

/-- `finite_inputs` is the conjunction, over the five float inputs, of "every entry's absolute value is below +∞";
    at the extended reals an entry whose absolute value is below +∞ is neither infinity, that is, a real number. -/
theorem real_of_finite (x0 : FVec Ideal S100000x256 .f32) (x1 : IVec S2x3200000 32) (x2 : FVec Ideal S256x32 .f32)
    (x3 : FVec Ideal S32 .f32) (x4 : FVec Ideal S32x10 .f32) (x5 : FVec Ideal S10 .f32)
    (h : Cert.Pre_finite_inputs.fn (F := Ideal) x0 x1 x2 x3 x4 x5 = fun _ => 1#1) :
    (∀ i, IsReal (x0 i)) ∧ (∀ i, IsReal (x2 i)) ∧ (∀ i, IsReal (x3 i)) ∧ (∀ i, IsReal (x4 i)) ∧ (∀ i, IsReal (x5 i)) := by
  have h0 := congrFun h ix0
  dsimp only [Cert.Pre_finite_inputs.fn, Cert.Pre_finite_inputs.fn_part1, andi] at h0
  obtain ⟨h1234, e5⟩ := IntOp.andi_eq_one.1 h0
  obtain ⟨h123, e4⟩ := IntOp.andi_eq_one.1 h1234
  obtain ⟨h12, e3⟩ := IntOp.andi_eq_one.1 h123
  obtain ⟨e0, e2⟩ := IntOp.andi_eq_one.1 h12
  exact ⟨all_real x0 _ _ _ e0, all_real x2 _ _ _ e2, all_real x3 _ _ _ e3, all_real x4 _ _ _ e4, all_real x5 _ _ _ e5⟩

end Cert.Gcn

end
-- ==== Proof.lean ====
/-
  A graph convolution with a classifier head — log_softmax (relu (Â (X · W1) + b1) · W2 + b2), Â the symmetrically
  degree-normalised adjacency with self-loops — as a kernel of two pallas_calls around the host's gather / scatter
  stage, against the same computation written with jnp.

  Both programs end with the same array whenever every float input is a real number. The kernel's first call leaves
  X · W1 (each grid point a block of 5000 rows, the matrix product into a zero accumulator); the host stage between the
  calls is, operation for operation, the reference's graph stage, so both sides hold ONE term `aggregate` of X · W1 and
  the edge list; the second call leaves, row by row, x − (m + log Σ exp (x − m)) of the class scores x, m the row's
  maximum, where the reference computes (x − m) − log Σ exp (x − m). On the extended reals these differ at infinite
  scores, so the proof shows the scores real: the inputs are real by the precondition, the first product is a finite sum
  of products, every node's degree is at least one because its self-loop is among the edges (so deg^(-1/2) is real),
  gathers and scatter-adds of reals are reals, and the head is sums, products and maxima of reals. On a row of reals
  the two arrangements are one number.

  The three frames: the two kernel programs' are the generated frame certificates; the reference has no kernel, and
  its frame is its run with the result dropped. The idealization rewrote nothing, so `preserves` is trivial.
-/
import proofs.«150231_j42374147342661_1_alg».proof.Defs
import proofs.«150231_j42374147342661_1_alg».proof.Proof.Gen.Kernel
import proofs.«150231_j42374147342661_1_alg».proof.Proof.Gen.Kernel.Frame
import proofs.«150231_j42374147342661_1_alg».proof.Proof.Gen.KernelIdeal
import proofs.«150231_j42374147342661_1_alg».proof.Proof.Gen.KernelIdeal.Frame
import proofs.«150231_j42374147342661_1_alg».proof.Proof.Gen.ReferenceIdeal
import proofs.«150231_j42374147342661_1_alg».proof.Proof.Gen.Pre_finite_inputs
import proofs.«150231_j42374147342661_1_alg».proof.Proof.KernelValue
import proofs.«150231_j42374147342661_1_alg».proof.Proof.RefValue
import proofs.«150231_j42374147342661_1_alg».proof.Proof.Bridge
import proofs.«150231_j42374147342661_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.Gcn.Reference.run (F := Ideal) m ρ)

theorem preserves : Cert.preserves_Kernel_KernelIdeal := trivial

/-- From memories that agree on the arguments both programs end at the fused arrangement of the kernel's arguments:
    the kernel by its run; the reference ends at the shifted arrangement of its own arguments, which are the kernel's,
    and the precondition makes the float arguments real, where the two arrangements agree. -/
theorem algebraic : Cert.algebraic_KernelIdeal_ReferenceIdeal := by
  intro m ρ m' ρ' hpre hagree
  refine ⟨fun c => Cert.Gcn.fusedResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.Gcn.kernel_run m ρ, ?_⟩
  refine (θ_run Cert.ReferenceIdeal.defs _ _).mono (fun _ h c => ⟨(h c).1.trans ?_, (h c).2⟩)
    (Cert.Gcn.Reference.run (F := Ideal) m' ρ')
  obtain ⟨a0, a1, a2, a3, a4, a5⟩ := hagree c
  rw [a0, a1, a2, a3, a4, a5, Cert.Gcn.reference_result]
  obtain ⟨h0, h2, h3, h4, h5⟩ := Cert.Gcn.real_of_finite _ _ _ _ _ _ (hpre c)
  exact Cert.Gcn.shifted_eq_fused _ _ _ _ _ _ h0 h2 h3 h4 h5

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
